-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S32x128 : Shape := ⟨2, ![32, 128]⟩
abbrev S128x32 : Shape := ⟨2, ![128, 32]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128x32 : S_.BroadcastsInDim S128x32 (![] : Fin 0 → Fin S128x32.rank)
  reducesTo_S128x32_S_d0_1 : S128x32.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  let main_c_6 : IVec S_ 32 := constantI S_ 32 16#32
  let main_v18 : IVec S1000000 32 := broadcastInDim S1000000 ![] bcast_S_S1000000 main_c_6
  let main_v19 : IVec S1000000 1 := cmpi .slt main_arg1 main_v18
  let main_c_7 : IVec S_ 1 := constantI S_ 1 1#1
  let main_v20 : IVec S_ 1 := (fun x v => Host.reduce IntOp.andi x v reducesTo_S1000000_S_d0 h_S_) main_v19 main_c_7
  let main_v21 : IVec S_ 1 := andi main_v17 main_v20
  main_v21

def fn {F : FTy → Type} [FloatOps F] (main_arg0 : FVec F S1000000x128 .f32) (main_arg1 : IVec S1000000 32) (main_arg2 : FVec F S32x128 .f32) (main_arg3 : FVec F S128x32 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg1 main_v14
  let main_c_5 : IVec S_ 1 := constantI S_ 1 1#1
  fn_part1 (F := F) main_arg1 main_v13 main_v15 main_c_5
-- ==== Kernel.lean ====
abbrev S1000000x128 : Shape := ⟨2, ![1000000, 128]⟩
abbrev S1000000 : Shape := ⟨1, ![1000000]⟩
abbrev S32x128 : Shape := ⟨2, ![32, 128]⟩
abbrev S128x32 : Shape := ⟨2, ![128, 32]⟩
abbrev S_ : Shape := ⟨0, ![]⟩
abbrev S3520x128 : Shape := ⟨2, ![3520, 128]⟩
abbrev S1003520x128 : Shape := ⟨2, ![1003520, 128]⟩
abbrev S3520 : Shape := ⟨1, ![3520]⟩
abbrev S1003520 : Shape := ⟨1, ![1003520]⟩
abbrev S16x128 : Shape := ⟨2, ![16, 128]⟩
abbrev S4096x128 : Shape := ⟨2, ![4096, 128]⟩
abbrev S4096 : Shape := ⟨1, ![4096]⟩
abbrev S4096x16 : Shape := ⟨2, ![4096, 16]⟩
abbrev S4096x1 : Shape := ⟨2, ![4096, 1]⟩
abbrev S16 : Shape := ⟨1, ![16]⟩
abbrev S16x1 : Shape := ⟨2, ![16, 1]⟩
abbrev S16x32 : Shape := ⟨2, ![16, 32]⟩

abbrev nBuf : Space → Nat
  | .hbm => 33
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S32x128, .f32⟩
  | .hbm, ⟨3, _⟩ => ⟨S128x32, .f32⟩
  | .hbm, ⟨4, _⟩ => ⟨S_, .f32⟩
  | .hbm, ⟨5, _⟩ => ⟨S3520x128, .f32⟩
  | .hbm, ⟨6, _⟩ => ⟨S1003520x128, .f32⟩
  | .hbm, ⟨7, _⟩ => ⟨S_, .i32⟩
  | .hbm, ⟨8, _⟩ => ⟨S3520, .i32⟩
  | .hbm, ⟨9, _⟩ => ⟨S1003520, .i32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S16x128, .f32⟩
  | .hbm, ⟨16, _⟩ => ⟨S128x32, .f32⟩
  | .hbm, ⟨17, _⟩ => ⟨S16x32, .f32⟩
  | .hbm, ⟨18, _⟩ => ⟨S_, .f32⟩
  | .hbm, ⟨19, _⟩ => ⟨S16x32, .f32⟩
  | .hbm, ⟨20, _⟩ => ⟨S16x32, .f32⟩
  | .hbm, ⟨21, _⟩ => ⟨S32x128, .f32⟩
  | .hbm, ⟨22, _⟩ => ⟨S16x128, .f32⟩
  | .hbm, ⟨23, _⟩ => ⟨S16x128, .f32⟩
  | .hbm, ⟨24, _⟩ => ⟨S16x128, .f32⟩
  | .hbm, ⟨25, _⟩ => ⟨S_, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S1003520x128, .f32⟩
  | .hbm, ⟨32, _⟩ => ⟨S1000000x128, .f32⟩
  | .local _ .vmem, ⟨0, _⟩ => ⟨S4096x128, .f32⟩
  | .local _ .vmem, ⟨1, _⟩ => ⟨S4096x128, .f32⟩
  | .local _ .vmem, ⟨2, _⟩ => ⟨S4096, .i32⟩
  | .local _ .vmem, ⟨3, _⟩ => ⟨S4096, .i32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S4096x128, .f32⟩
  | .local _ .vmem, ⟨9, _⟩ => ⟨S4096x128, .f32⟩
  | .local _ .vmem, ⟨10, _⟩ => ⟨S4096, .i32⟩
  | .local _ .vmem, ⟨11, _⟩ => ⟨S4096, .i32⟩
  | .local _ .vmem, ⟨12, _⟩ => ⟨S16x128, .f32⟩
  | .local _ .vmem, ⟨13, _⟩ => ⟨S4096x128, .f32⟩
  | .local _ .vmem, ⟨14, _⟩ => ⟨S4096x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![245], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3520x128 : S_.BroadcastsInDim S3520x128 (![] : Fin 0 → Fin S3520x128.rank)
  concatenates_S1000000x128_S3520x128_S1003520x128_d0 : Shape.Concatenates [S1000000x128, S3520x128] S1003520x128 0
  bcast_S_S3520 : S_.BroadcastsInDim S3520 (![] : Fin 0 → Fin S3520.rank)
  concatenates_S1000000_S3520_S1003520_d0 : Shape.Concatenates [S1000000, S3520] S1003520 0
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096_S4096_0 : ∀ a, (![0] : Fin 1 → Nat) a + S4096.size a ≤ S4096.size a
  h_S4096 : 0 < S4096.numel
  shapeCasts_S4096_S4096 : S4096.ShapeCasts S4096
  iota_S4096x16_d1_w32 : S4096x16.Iotas .tc 32 [1]
  shapeCasts_S4096_S4096x1 : S4096.ShapeCasts S4096x1
  shapeCasts_S4096x1_S4096x1 : S4096x1.ShapeCasts S4096x1
  broadcasts_S4096x1_S4096x16 : S4096x1.Broadcasts S4096x16
  natLt_1_32 : 1 < 32
  bitsLt_bf16_f32 : FTy.bits .bf16 < FTy.bits .f32
  reduces_S4096x16_S16 : S4096x16.Reduces [0] S16
  shapeCasts_S16_S16x1 : S16.ShapeCasts S16x1
  shapeCasts_S16x1_S16x1 : S16x1.ShapeCasts S16x1
  broadcasts_S16x1_S16x128 : S16x1.Broadcasts S16x128
  bcast_S_S16x128 : S_.BroadcastsInDim S16x128 (![] : Fin 0 → Fin S16x128.rank)
  transposes_S32x128_S128x32_1_0 : S32x128.Transposes [1, 0] S128x32
  bcast_S_S16x32 : S_.BroadcastsInDim S16x32 (![] : Fin 0 → Fin S16x32.rank)
  transposes_S128x32_S32x128_1_0 : S128x32.Transposes [1, 0] S32x128
  slices_S1003520x128_S1000000x128_0_0 : S1003520x128.Slices ![0, 0] S1000000x128
  dot_S4096x16_S4096x128_S16x128_0_0_1_1_n_n_wf : DotDims.WF S4096x16 S4096x128 S16x128 [0] [0] [1] [1] [] []
  dot_S16x128_S128x32_S16x32_1_0_0_1_n_n_wf : DotDims.WF S16x128 S128x32 S16x32 [1] [0] [0] [1] [] []
  dot_S16x32_S32x128_S16x128_1_0_0_1_n_n_wf : DotDims.WF S16x32 S32x128 S16x128 [1] [0] [0] [1] [] []
  dot_S4096x16_S16x128_S4096x128_1_0_0_1_n_n_wf : DotDims.WF S4096x16 S16x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .f32 = 32 ∨ (Rect.block (s := S1003520x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1003520.size a
  hwx0_1 : ∀ i : grid0.Coords, EltTy.bits .i32 = 32 ∨ (Rect.block (s := S1003520) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S1003520x128.size a
  hwx1_0 : ∀ i : grid1.Coords, EltTy.bits .f32 = 32 ∨ (Rect.block (s := S1003520x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1003520.size a
  hwx1_1 : ∀ i : grid1.Coords, EltTy.bits .i32 = 32 ∨ (Rect.block (s := S1003520) S4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S1003520x128.size a
  hwx1_3 : ∀ i : grid1.Coords, EltTy.bits .f32 = 32 ∨ (Rect.block (s := S1003520x128) S4096x128.size (cc1_transform_3 i) (hinb1_3 i)).WholeWords (EltTy.packing .f32)

variable [Facts₀]

def dot_S4096x16_S4096x128_S16x128_0_0_1_1_n_n : DotDims S4096x16 S4096x128 S16x128 where
  lhsContracting := [0]
  rhsContracting := [0]
  lhsNonContracting := [1]
  rhsNonContracting := [1]
  lhsBatch := []
  rhsBatch := []
  wf := dot_S4096x16_S4096x128_S16x128_0_0_1_1_n_n_wf
def dot_S16x128_S128x32_S16x32_1_0_0_1_n_n : DotDims S16x128 S128x32 S16x32 where
  lhsContracting := [1]
  rhsContracting := [0]
  lhsNonContracting := [0]
  rhsNonContracting := [1]
  lhsBatch := []
  rhsBatch := []
  wf := dot_S16x128_S128x32_S16x32_1_0_0_1_n_n_wf
def dot_S16x32_S32x128_S16x128_1_0_0_1_n_n : DotDims S16x32 S32x128 S16x128 where
  lhsContracting := [1]
  rhsContracting := [0]
  lhsNonContracting := [0]
  rhsNonContracting := [1]
  lhsBatch := []
  rhsBatch := []
  wf := dot_S16x32_S32x128_S16x128_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf

abbrev win0_0 : Pipeline.Window sig grid0 :=
  Pipeline.Window.ofSpec (Memref.whole main_v1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S16x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S16x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S32x128 : Shape := ⟨2, ![32, 128]⟩
abbrev S128x32 : Shape := ⟨2, ![128, 32]⟩
abbrev S_ : Shape := ⟨0, ![]⟩
abbrev S16x128 : Shape := ⟨2, ![16, 128]⟩
abbrev S1000000x1 : Shape := ⟨2, ![1000000, 1]⟩
abbrev S16 : Shape := ⟨1, ![16]⟩
abbrev S16x1 : Shape := ⟨2, ![16, 1]⟩
abbrev S16x32 : Shape := ⟨2, ![16, 32]⟩

abbrev nBuf : Space → Nat
  | .hbm => 45
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S32x128, .f32⟩
  | .hbm, ⟨3, _⟩ => ⟨S128x32, .f32⟩
  | .hbm, ⟨4, _⟩ => ⟨S_, .f32⟩
  | .hbm, ⟨5, _⟩ => ⟨S16x128, .f32⟩
  | .hbm, ⟨6, _⟩ => ⟨S1000000x1, .i32⟩
  | .hbm, ⟨7, _⟩ => ⟨S16x128, .f32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S16, .f32⟩
  | .hbm, ⟨12, _⟩ => ⟨S1000000x1, .i32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S16x128, .f32⟩
  | .hbm, ⟨19, _⟩ => ⟨S16x128, .f32⟩
  | .hbm, ⟨20, _⟩ => ⟨S128x32, .f32⟩
  | .hbm, ⟨21, _⟩ => ⟨S16x32, .f32⟩
  | .hbm, ⟨22, _⟩ => ⟨S_, .f32⟩
  | .hbm, ⟨23, _⟩ => ⟨S16x32, .f32⟩
  | .hbm, ⟨24, _⟩ => ⟨S16x32, .f32⟩
  | .hbm, ⟨25, _⟩ => ⟨S32x128, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S_, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x128, .f32⟩
  | .hbm, ⟨44, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S16x128 : S_.BroadcastsInDim S16x128 (![] : Fin 0 → Fin S16x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  transposes_S32x128_S128x32_1_0 : S32x128.Transposes [1, 0] S128x32
  bcast_S_S16x32 : S_.BroadcastsInDim S16x32 (![] : Fin 0 → Fin S16x32.rank)
  transposes_S128x32_S32x128_1_0 : S128x32.Transposes [1, 0] S32x128
  scatter_S16x128_S1000000x1_S1000000x128_1_0_0_1_wf : ScatterDims.WF S16x128 S1000000x1 S1000000x128 [1] [0] [0] 1
  scatter_S16_S1000000x1_S1000000_n_0_0_1_wf : ScatterDims.WF S16 S1000000x1 S1000000 [] [0] [0] 1
  dot_S16x128_S128x32_S16x32_1_0_0_1_n_n_wf : DotDims.WF S16x128 S128x32 S16x32 [1] [0] [0] [1] [] []
  dot_S16x32_S32x128_S16x128_1_0_0_1_n_n_wf : DotDims.WF S16x32 S32x128 S16x128 [1] [0] [0] [1] [] []
  gather_S16x128_S1000000x1_S1000000x128_1_0_n_n_0_1_1128_wf : GatherDims.WF S16x128 S1000000x1 S1000000x128 [1] [0] [] [0] [] 1 ![1, 128]

variable [Facts₀]

def scatter_S16x128_S1000000x1_S1000000x128_1_0_0_1 : ScatterDims S16x128 S1000000x1 S1000000x128 where
  updateWindowDims := [1]
  insertedWindowDims := [0]
  scatterDimsToOperandDims := [0]
  indexVectorDim := 1
  wf := scatter_S16x128_S1000000x1_S1000000x128_1_0_0_1_wf
def scatter_S16_S1000000x1_S1000000_n_0_0_1 : ScatterDims S16 S1000000x1 S1000000 where
  updateWindowDims := []
  insertedWindowDims := [0]
  scatterDimsToOperandDims := [0]
  indexVectorDim := 1
  wf := scatter_S16_S1000000x1_S1000000_n_0_0_1_wf
def dot_S16x128_S128x32_S16x32_1_0_0_1_n_n : DotDims S16x128 S128x32 S16x32 where
  lhsContracting := [1]
  rhsContracting := [0]
  lhsNonContracting := [0]
  rhsNonContracting := [1]
  lhsBatch := []
  rhsBatch := []
  wf := dot_S16x128_S128x32_S16x32_1_0_0_1_n_n_wf
def dot_S16x32_S32x128_S16x128_1_0_0_1_n_n : DotDims S16x32 S32x128 S16x128 where
  lhsContracting := [1]
  rhsContracting := [0]
  lhsNonContracting := [0]
  rhsNonContracting := [1]
  lhsBatch := []
  rhsBatch := []
  wf := dot_S16x32_S32x128_S16x128_1_0_0_1_n_n_wf
def gather_S16x128_S1000000x1_S1000000x128_1_0_n_n_0_1_1128 : GatherDims S16x128 S1000000x1 S1000000x128 where
  offsetDims := [1]
  collapsedSliceDims := [0]
  operandBatchingDims := []
  startIndicesBatchingDims := []
  startIndexMap := [0]
  indexVectorDim := 1
  sliceSizes := ![1, 128]
  wf := gather_S16x128_S1000000x1_S1000000x128_1_0_n_n_0_1_1128_wf

class Facts : Prop extends Facts₀ where

variable [Facts]
-- ==== Proof.KR0Runs.lean ====
/-
  The segment-reduce call (the first of the two pallas_calls), what its runs share. The body branches once, on the
  grid position: at the first grid point it clears the two scratch accumulators (sums and counts) before adding the
  point's partial sums, at every later point it only adds. Stated here: that condition and where it holds, the
  staging and scratch memrefs the body is called with, and the class invariant spelled with the two scratch
  accumulators named apart from the other scoped buffers (the second call's staging), which the body never touches.
-/
import proofs.«405616_j738734375755_1_alg».proof.Proof.Gen.Kernel.Launch
import proofs.«405616_j738734375755_1_alg».proof.Proof.Gen.Kernel.Skeleton
import proofs.«405616_j738734375755_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the printed scalar chain computes it from the coordinate. -/
abbrev cond0 (i : grid0.Coords) : Prop :=
  (Scalar.cmpi .ne (Scalar.extui (Scalar.cmpi .eq (BitVec.ofNat 32 (i 0).val) 0#32)) 0#32) = 1#1

/-- It holds exactly at the first of the 245 points (decided over the grid). -/
theorem hcond0 : ∀ t : Fin cfg0.N, cond0 (grid0.coords t) ↔ t.val = 0 :=
  (by decide +kernel : ∀ t : Fin grid0.N, cond0 (grid0.coords t) ↔ t.val = 0)

/-- No window of the call is ever idle. -/
theorem liveAt0 : ∀ (w : Fin cfg0.W) (t : Fin cfg0.N), cfg0.idle w (grid0.coords t) = false := by decide +kernel

/-- Each window's current staging memref at point `t`, as the pipeline passes it, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)

/-- The two scratch accumulators: the running segment sums and the running segment counts. -/
abbrev scSum : Memref sig .tc .vmem S16x128 .f32 := Memref.whole cc0_scratch0
abbrev scCnt : Memref sig .tc .vmem S16x128 .f32 := Memref.whole cc0_scratch1

/-- Views through which the contents of the two outputs' staging buffers and of the two accumulators are stated. -/
abbrev VO2 : View sig .tc .vmem S16x128 .f32 := (Memref.whole cc0_stg2_0 : Memref sig .tc .vmem S16x128 .f32).view
abbrev VO3 : View sig .tc .vmem S16x128 .f32 := (Memref.whole cc0_stg3_0 : Memref sig .tc .vmem S16x128 .f32).view
abbrev VSum : View sig .tc .vmem S16x128 .f32 := scSum.view
abbrev VCnt : View sig .tc .vmem S16x128 .f32 := scCnt.view

/-- The scoped buffers the first call neither stages nor uses as scratch: the second call's staging buffers, each
    whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of the first call, with the two accumulators as memrefs owned at some contents. -/
theorem PhiA0_eq (c : Dev nD) :
    (Pipeline.ΦA spec0 c : sProp 𝕄)
      = iprop(iprop((∃ d, owns (c : Thread nD τ) scSum fullShare d) ∗ (∃ d, owns (c : Thread nD τ) scCnt fullShare d) ∗ otherScoped c) ∗ (∃ r, prngReg c r)) := by
  unfold Pipeline.ΦA otherScoped; rw [scopedRest0_eq]; simp only [scSum, scCnt, owns_whole]; try rfl

end Cert.Kernel.Hand

end
-- ==== Proof.KR0RunA.lean ====
/-
  The segment-reduce body at the FIRST grid point, run whole: it clears both accumulators, adds the point's partial
  segment sums and counts to them, and copies each accumulator to its output window's staging buffer. What each of
  the four buffers ends holding is stated as the pieces its stores leave (last store first).
-/
import proofs.«405616_j738734375755_1_alg».proof.Proof.KR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is taken (grid point 0): on whole memrefs, the two inputs at their blocks, the two
    outputs' staging buffers and the two accumulators at anything, it runs to the continuation holding the inputs as
    they were and each of the other four with the pieces its stores leave written. -/
noncomputable def kernelRun0_A (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    Σ' (L2 : List (View.Piece (Elt F) S16x128 .f32)) (L3 : List (View.Piece (Elt F) S16x128 .f32)) (LS5 : List (View.Piece (Elt F) S16x128 .f32)), { LS6 : List (View.Piece (Elt F) S16x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds5, %fs5, -, HS5⟩, ⟨%ds6, %fs6, -, HS6⟩, Hk⟩
    obtain rfl := harg1.eq_unread hf0; obtain rfl := harg2.eq_unread hf1
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS5]; · iexists _; iexact HS5
    iexists _; iexact HS6

end Cert.Kernel.Hand

end
-- ==== Proof.KR0RunB.lean ====
/-
  The segment-reduce body at a LATER grid point, run whole: the branch is not taken, so it adds the point's partial
  segment sums and counts to what the accumulators held, and copies each accumulator to its output window's staging
  buffer. What each of the four buffers ends holding is stated as the pieces its stores leave.
-/
import proofs.«405616_j738734375755_1_alg».proof.Proof.KR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is not taken (every grid point but the first): on whole memrefs, the two inputs at
    their blocks, the accumulators at what the point before left (`xs5`, `xs6`), the outputs' staging buffers at
    anything, it runs to the continuation holding the inputs as they were and each of the other four with the pieces
    its stores leave written. -/
noncomputable def kernelRun0_B (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 : Vec F S16x128 .f32) (xs6 : Vec F S16x128 .f32) :
    Σ' (L2 : List (View.Piece (Elt F) S16x128 .f32)) (L3 : List (View.Piece (Elt F) S16x128 .f32)) (LS5 : List (View.Piece (Elt F) S16x128 .f32)), { LS6 : List (View.Piece (Elt F) S16x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs5, %hfs5, HS5⟩, ⟨%fs6, %hfs6, HS6⟩, Hk⟩
    obtain rfl := harg1.eq_unread hf0; obtain rfl := harg2.eq_unread hf1; obtain rfl := harg5.eq_unread hfs5; obtain rfl := harg6.eq_unread hfs6
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS5]; · iexists _; iexact HS5
    iexists _; iexact HS6

end Cert.Kernel.Hand

end
-- ==== Proof.KR0Pieces.lean ====
/-
  What the two runs of the segment-reduce body leave, read back as values. In either case the sum accumulator and
  the sum output's staging buffer end at the point's partial segment sums added to what the accumulator held (the
  cleared block at the first point), and the count accumulator and the count output's staging buffer at the point's
  partial segment counts added likewise: each buffer's last store covers it, and every load the body makes after a
  store reads that store's payload back.
-/
import proofs.«405616_j738734375755_1_alg».proof.Proof.KR0RunA
import proofs.«405616_j738734375755_1_alg».proof.Proof.KR0RunB
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- A load through the whole-buffer rectangle, after stores of which the LAST is a store through that rectangle,
    reads that store's payload, whatever the earlier stores were. -/
theorem readCov_cons_unit_zero {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- At the first grid point the stores into the segment-sum output's staging buffer tile it. -/
theorem cover0_A_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).1, y ∈ pc.1.set :=
  View.cover_of_tiledL (kernelRun0_A c i arg1 harg1 arg2 harg2 arg3 harg3 arg4 harg4 arg5 harg5 arg6 harg6 hc0 x0 x1).1 S16x128.size (by sl_kernel_rfl) y

/-- and leave in it the point's partial sums added to the cleared block. -/
theorem canon0_A_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).1 = k0_pay4 x0 x1 (k0_pay1 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the segment-sum output's staging buffer tile it. -/
theorem cover0_B_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).1, y ∈ pc.1.set :=
  View.cover_of_tiledL (kernelRun0_B c i arg1 harg1 arg2 harg2 arg3 harg3 arg4 harg4 arg5 harg5 arg6 harg6 hc0 x0 x1 xs5 xs6).1 S16x128.size (by sl_kernel_rfl) y

/-- and leave in it the point's partial sums added to what the accumulator held. -/
theorem canon0_B_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).1 = k0_pay4 x0 x1 xs5 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At the first grid point the stores into the segment-count output's staging buffer tile it. -/
theorem cover0_A_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).2.1, y ∈ pc.1.set :=
  View.cover_of_tiledL (kernelRun0_A c i arg1 harg1 arg2 harg2 arg3 harg3 arg4 harg4 arg5 harg5 arg6 harg6 hc0 x0 x1).2.1 S16x128.size (by sl_kernel_rfl) y

/-- and leave in it the point's partial counts added to the cleared block. -/
theorem canon0_A_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).2.1 = k0_pay5 x1 (k0_pay2 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the segment-count output's staging buffer tile it. -/
theorem cover0_B_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).2.1, y ∈ pc.1.set :=
  View.cover_of_tiledL (kernelRun0_B c i arg1 harg1 arg2 harg2 arg3 harg3 arg4 harg4 arg5 harg5 arg6 harg6 hc0 x0 x1 xs5 xs6).2.1 S16x128.size (by sl_kernel_rfl) y

/-- and leave in it the point's partial counts added to what the accumulator held. -/
theorem canon0_B_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).2.1 = k0_pay5 x1 xs6 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At the first grid point the stores into the sum accumulator tile it. -/
theorem cover0_A_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).2.2.1, y ∈ pc.1.set :=
  View.cover_of_tiledL (kernelRun0_A c i arg1 harg1 arg2 harg2 arg3 harg3 arg4 harg4 arg5 harg5 arg6 harg6 hc0 x0 x1).2.2.1 S16x128.size (by sl_kernel_rfl) y

/-- and leave in it the point's partial sums added to the cleared block. -/
theorem canon0_A_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).2.2.1 = k0_pay4 x0 x1 (k0_pay1 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the sum accumulator tile it. -/
theorem cover0_B_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).2.2.1, y ∈ pc.1.set :=
  View.cover_of_tiledL (kernelRun0_B c i arg1 harg1 arg2 harg2 arg3 harg3 arg4 harg4 arg5 harg5 arg6 harg6 hc0 x0 x1 xs5 xs6).2.2.1 S16x128.size (by sl_kernel_rfl) y

/-- and leave in it the point's partial sums added to what the accumulator held. -/
theorem canon0_B_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).2.2.1 = k0_pay4 x0 x1 xs5 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At the first grid point the stores into the count accumulator tile it. -/
theorem cover0_A_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).2.2.2.1, y ∈ pc.1.set :=
  View.cover_of_tiledL (kernelRun0_A c i arg1 harg1 arg2 harg2 arg3 harg3 arg4 harg4 arg5 harg5 arg6 harg6 hc0 x0 x1).2.2.2.1 S16x128.size (by sl_kernel_rfl) y

/-- and leave in it the point's partial counts added to the cleared block. -/
theorem canon0_A_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).2.2.2.1 = k0_pay5 x1 (k0_pay2 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the count accumulator tile it. -/
theorem cover0_B_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).2.2.2.1, y ∈ pc.1.set :=
  View.cover_of_tiledL (kernelRun0_B c i arg1 harg1 arg2 harg2 arg3 harg3 arg4 harg4 arg5 harg5 arg6 harg6 hc0 x0 x1 xs5 xs6).2.2.2.1 S16x128.size (by sl_kernel_rfl) y

/-- and leave in it the point's partial counts added to what the accumulator held. -/
theorem canon0_B_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).2.2.2.1 = k0_pay5 x1 xs6 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

end Cert.Kernel.Hand

end
-- ==== Proof.KR0Body.lean ====
/-
  The segment-reduce call at an entry valuation `V` (the TensorCore's buffer contents when the call is entered):
  the running accumulators, the proof data and the body obligation.

  After grid point n the sum accumulator holds the partial segment sums of blocks 0 … n added up in point order
  from the cleared block, and the count accumulator the partial segment counts likewise (`acc0`, by recursion on
  the point). The region invariant carries both accumulators between points at exactly those contents; each output
  window's staging buffer is left at the accumulator's contents at every point (the pipeline writes the two blocks
  back once, after the last point).
-/
import proofs.«405616_j738734375755_1_alg».proof.Proof.KR0Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the padded data is in its staging buffer at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the block of padded segment ids. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running accumulators -/

/-- What the sum accumulator (first component) and the count accumulator (second) hold after grid point `n`: at the
    first point the point's partial sums / counts added to the cleared block, afterwards added to what the point
    before left. -/
def acc0 (c : Dev nD) : (n : ℕ) → n < cfg0.N → Vec F S16x128 .f32 × Vec F S16x128 .f32
  | 0, hn => (k0_pay4 (iblk0 V c 0 ⟨0, hn⟩) (iblk0 V c 1 ⟨0, hn⟩) (k0_pay1 (F := F)), k0_pay5 (iblk0 V c 1 ⟨0, hn⟩) (k0_pay2 (F := F)))
  | n + 1, hn => (k0_pay4 (iblk0 V c 0 ⟨n + 1, hn⟩) (iblk0 V c 1 ⟨n + 1, hn⟩) (acc0 c n (Nat.lt_of_succ_lt hn)).1,
      k0_pay5 (iblk0 V c 1 ⟨n + 1, hn⟩) (acc0 c n (Nat.lt_of_succ_lt hn)).2)

theorem acc0_first (c : Dev nD) (t : Fin cfg0.N) (h : t.val = 0) :
    acc0 V c t.val t.isLt = (k0_pay4 (iblk0 V c 0 t) (iblk0 V c 1 t) (k0_pay1 (F := F)), k0_pay5 (iblk0 V c 1 t) (k0_pay2 (F := F))) := by
  obtain ⟨n, hn⟩ := t
  cases n with
  | zero => rfl
  | succ n => exact absurd h (Nat.succ_ne_zero n)

theorem acc0_later (c : Dev nD) (t : Fin cfg0.N) (h : t.val ≠ 0) :
    acc0 V c t.val t.isLt = (k0_pay4 (iblk0 V c 0 t) (iblk0 V c 1 t) (acc0 V c (t.val - 1) (Nat.lt_of_le_of_lt (Nat.sub_le _ _) t.isLt)).1,
      k0_pay5 (iblk0 V c 1 t) (acc0 V c (t.val - 1) (Nat.lt_of_le_of_lt (Nat.sub_le _ _) t.isLt)).2) := by
  obtain ⟨n, hn⟩ := t
  cases n with
  | zero => exact absurd rfl h
  | succ n => rfl

/-! ## The region invariant -/

/-- Before grid point `n`: at the first point the class invariant (both accumulators at anything); afterwards both
    accumulators at what the point before left, the other scoped buffers at anything, the generator register at
    some state. -/
def Phi0 (c : Dev nD) : (n : ℕ) → n ≤ cfg0.N → sProp 𝕄
  | 0, _ => Pipeline.ΦA spec0 c
  | n + 1, hn => iprop(iprop(owns (c : Thread nD τ) scSum fullShare (acc0 V c n hn).1 ∗ owns (c : Thread nD τ) scCnt fullShare (acc0 V c n hn).2 ∗ otherScoped c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scSum fullShare (acc0 V c n hn).1 ∗ owns (c : Thread nD τ) scCnt fullShare (acc0 V c n hn).2 ∗ otherScoped c) ∗ (∃ r, prngReg c r)) := rfl

theorem Phi0_pos (c : Dev nD) (n : ℕ) (h : n ≤ cfg0.N) (hz : n ≠ 0) :
    Phi0 V c n h = iprop(iprop(owns (c : Thread nD τ) scSum fullShare (acc0 V c (n - 1) (by omega)).1 ∗ owns (c : Thread nD τ) scCnt fullShare (acc0 V c (n - 1) (by omega)).2 ∗ otherScoped c) ∗ (∃ r, prngReg c r)) := by
  cases n with
  | zero => exact absurd rfl hz
  | succ n => rfl

/-! ## The proof data -/

/-- The proof data of the segment-reduce call on core `c`: the arrays as the call finds them; after the body at
    point `t` each input's buffer at its block and the two outputs' at the accumulators' contents; the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4800000 in
/-- The body at any point. The inputs' memrefs hold their blocks; whether the point is the first decides the case.
    The invariant hands the body the accumulators (at anything at the first point, at what the point before left
    afterwards) and takes them back at this point's contents; each output's staging buffer comes back at the
    accumulator's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [after0_0, after0_1, after0_2, after0_3]
  by_cases hz : t.val = 0
  · rw [acc0_first V c t hz]; dsimp only
    rw [Phi0_castSucc V c t, Phi0_zero V c _ _ hz, PhiA0_eq]
    iintro ⟨⟨⟨HS5, HS6, Hoth⟩, Hg⟩, Ho, ⟨%d0, H0⟩, ⟨%d1, H1⟩, ⟨%d2, H2⟩, ⟨%d3, H3⟩⟩
    iapply ((kernelRun0_A c (grid0.coords t) _ _ _ _ _ _ _ _ _ _ _ _ ((hcond0 t).mpr hz) (iblk0 V c 0 t) (iblk0 V c 1 t)).2.2.2.2 Set.univ _)
    isplitl [H0]; · iexact H0
    isplitl [H1]; · iexact H1
    isplitl [H2]; · iexists _; iexact H2
    isplitl [H3]; · iexists _; iexact H3
    isplitl [HS5]; · iexact HS5
    isplitl [HS6]; · iexact HS6
    iintro ⟨H0, H1, ⟨%e2, H2⟩, ⟨%e3, H3⟩, ⟨%es5, HS5⟩, ⟨%es6, HS6⟩⟩
    isplitl [HS5 HS6 Hoth Hg]
    · isplitl [HS5 HS6 Hoth]
      · isplitl [HS5]
        · unfold owns; iexists _; isplitr
          swap; · iexact HS5
          ipureintro; exact (View.read_writes_eq_canon _ _ _ (cover0_A_5 c _ _ _ _ _ _ _ _ _ _ _ _ _ _ _ _)).trans (canon0_A_5 c _ _ _ _ _ _ _ _ _ _ _ _ _ _ _ _)
        isplitl [HS6]
        · unfold owns; iexists _; isplitr
          swap; · iexact HS6
          ipureintro; exact (View.read_writes_eq_canon _ _ _ (cover0_A_6 c _ _ _ _ _ _ _ _ _ _ _ _ _ _ _ _)).trans (canon0_A_6 c _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact (View.read_writes_eq_canon _ _ _ (cover0_A_2 c _ _ _ _ _ _ _ _ _ _ _ _ _ _ _ _)).trans (canon0_A_2 c _ _ _ _ _ _ _ _ _ _ _ _ _ _ _ _)
    unfold owns; iexists _; isplitr
    swap; · iexact H3
    ipureintro; exact (View.read_writes_eq_canon _ _ _ (cover0_A_3 c _ _ _ _ _ _ _ _ _ _ _ _ _ _ _ _)).trans (canon0_A_3 c _ _ _ _ _ _ _ _ _ _ _ _ _ _ _ _)
  · rw [acc0_later V c t hz]; dsimp only
    rw [Phi0_castSucc V c t, Phi0_pos V c _ _ hz]
    iintro ⟨⟨⟨HS5, HS6, Hoth⟩, Hg⟩, Ho, ⟨%d0, H0⟩, ⟨%d1, H1⟩, ⟨%d2, H2⟩, ⟨%d3, H3⟩⟩
    iapply ((kernelRun0_B c (grid0.coords t) _ _ _ _ _ _ _ _ _ _ _ _ (fun h => hz ((hcond0 t).mp h)) (iblk0 V c 0 t) (iblk0 V c 1 t) _ _).2.2.2.2 Set.univ _)
    isplitl [H0]; · iexact H0
    isplitl [H1]; · iexact H1
    isplitl [H2]; · iexists _; iexact H2
    isplitl [H3]; · iexists _; iexact H3
    isplitl [HS5]; · iexact HS5
    isplitl [HS6]; · iexact HS6
    iintro ⟨H0, H1, ⟨%e2, H2⟩, ⟨%e3, H3⟩, ⟨%es5, HS5⟩, ⟨%es6, HS6⟩⟩
    isplitl [HS5 HS6 Hoth Hg]
    · isplitl [HS5 HS6 Hoth]
      · isplitl [HS5]
        · unfold owns; iexists _; isplitr
          swap; · iexact HS5
          ipureintro; exact (View.read_writes_eq_canon _ _ _ (cover0_B_5 c _ _ _ _ _ _ _ _ _ _ _ _ _ _ _ _ _ _)).trans (canon0_B_5 c _ _ _ _ _ _ _ _ _ _ _ _ _ _ _ _ _ _)
        isplitl [HS6]
        · unfold owns; iexists _; isplitr
          swap; · iexact HS6
          ipureintro; exact (View.read_writes_eq_canon _ _ _ (cover0_B_6 c _ _ _ _ _ _ _ _ _ _ _ _ _ _ _ _ _ _)).trans (canon0_B_6 c _ _ _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact (View.read_writes_eq_canon _ _ _ (cover0_B_2 c _ _ _ _ _ _ _ _ _ _ _ _ _ _ _ _ _ _)).trans (canon0_B_2 c _ _ _ _ _ _ _ _ _ _ _ _ _ _ _ _ _ _)
    unfold owns; iexists _; isplitr
    swap; · iexact H3
    ipureintro; exact (View.read_writes_eq_canon _ _ _ (cover0_B_3 c _ _ _ _ _ _ _ _ _ _ _ _ _ _ _ _ _ _)).trans (canon0_B_3 c _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 245 := N_0; omega), PhiA0_eq]
  iintro ⟨⟨HS5, HS6, Hoth⟩, Hg⟩
  isplitl [HS5 HS6 Hoth]
  · isplitl [HS5]; · iexists _; iexact HS5
    isplitl [HS6]; · iexists _; iexact HS6
    iexact Hoth
  iexact Hg

end Cert.Kernel.Hand

end
-- ==== Proof.KR1Body.lean ====
/-
  The gather-and-multiply call (the second pallas_call) at an entry valuation `V`: the body keeps nothing between
  grid points and has one control path — it loads a row block of the padded data, the block's segment ids and the
  whole 16×128 gate table, and stores into the output block the data times the gate row each id selects (as a one-hot
  matrix product). So its proof data is direct: each input's staging buffer at its block, the output's at that one
  store's payload of the three blocks, the class invariant untouched.
-/
import proofs.«405616_j738734375755_1_alg».proof.Proof.Gen.Kernel.Launch
import proofs.«405616_j738734375755_1_alg».proof.Proof.Gen.Kernel.Skeleton
import proofs.«405616_j738734375755_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the gate
    table is fetched once, its block index never moving), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output block -/

abbrev rX : Rect S4096x128 := Rect.unit (s := S4096x128) ![0, 0] S4096x128.size inb_S4096x128_S4096x128_0_0
abbrev rI : Rect S4096 := Rect.unit (s := S4096) ![0] S4096.size inb_S4096_S4096_0
abbrev rG : Rect S16x128 := Rect.unit (s := S16x128) ![0, 0] S16x128.size inb_S16x128_S16x128_0_0

theorem hzX : (![0, 0] : Fin 2 → Nat) = fun _ => 0 := funext fun a => by fin_cases a <;> rfl

/-- The output block's staging buffer after the body, from the three input blocks: its one store, as a piece. -/
def out1_3 (x0 : Vec F S4096x128 .f32) (x1 : Vec F S4096 .i32) (x2 : Vec F S16x128 .f32) : Vec F S4096x128 .f32 :=
  View.canon [⟨rX, k1_pay1 (View.ld x0 rX) (View.ld x1 rI) (View.ld x2 rG)⟩]

/-- That store covers the buffer. -/
theorem cover1_3 (p0 : Vec F S4096x128 .f32) (y : S4096x128.Idx) :
    ∃ pc ∈ ([⟨rX, p0⟩] : List (View.Piece (Elt F) S4096x128 .f32)), y ∈ pc.1.set :=
  ⟨_, List.mem_singleton_self _, View.mem_set_unit_zero hzX inb_S4096x128_S4096x128_0_0 y⟩

/-! ## The body's triple -/

set_option maxHeartbeats 4000000 in
/-- The body on whole staging memrefs, the inputs' at their contents and the output's at anything, runs to the
    continuation holding the inputs' as they were and the output's at `out1_3` of the inputs'. -/
theorem sound_kernel1 (c : Dev nD) (E : Set ℕ) (i : grid1.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S4096x128 .f32) (harg4 : arg4.IsWhole)
    (x0 : Vec F S4096x128 .f32) (x1 : Vec F S4096 .i32) (x2 : Vec F S16x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gather_mul_kernel i arg1 harg1 arg2 harg2 arg3 harg3 arg4 harg4) K := by
  simp only [cc1__gather_mul_kernel_eq_skeleton]; unfold cc1__gather_mul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The proof data of the gather-and-multiply call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KFold.lean ====
/-
  The buffer contents at each boundary of @main, as a fold from the launch memory: a stretch of host operations
  applies them in order; a pallas_call leaves each of its arrays at what the pipeline's write-backs leave (an input
  as entered) and every other buffer as entered. @main is: six host operations (the padding of the data with zero
  rows and of the segment ids with the id 16), the segment-reduce call, nineteen host operations in three stretches
  (the segment means, the two small matrix products, the sigmoid: the 16×128 gate table), the gather-and-multiply
  call, one host operation (the slice that drops the padding rows).
-/
import proofs.«405616_j738734375755_1_alg».proof.Proof.KR0Body
import proofs.«405616_j738734375755_1_alg».proof.Proof.KR1Body
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the padding (the segment-reduce call's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- At the segment-reduce call's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the segment means and the first matrix product; after the relu; after the second matrix product and the
    sigmoid (the gather-and-multiply call's entry). -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev V5 : (c : Dev nD) → (b : Ref sig .tc) → Buf (Elt F) ((c : Thread nD τ).loc b) := fun c b => W5 m c b
/-- At the gather-and-multiply call's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the final slice (the return). -/
abbrev W7 (c : Dev nD) : Valuation τ sig (Elt F) := StableHlo.after hostOps2 (W6 m c)

end Cert.Kernel.Hand

end
-- ==== Proof.KRun.lean ====
/-
  The run of @main: its seven items as segments (a host segment per stretch of host operations from its boundary's
  contents, a region per pallas_call), every pipeline's proof data at its call's entry contents, and the launch —
  every weakly fair execution terminates, nothing faulting, and every final memory holds each unscoped buffer at
  the last boundary's contents `W7`. The frame claim (the four argument arrays end as launched) is read off that:
  no host operation writes an argument and neither call has one as an output.
-/
import proofs.«405616_j738734375755_1_alg».proof.Proof.KFold
import proofs.«405616_j738734375755_1_alg».proof.Proof.Gen.Kernel.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W7 m c) ∗ ∃ r, prngReg c r)

/-! ## The two calls as segments -/

set_option backward.isDefEq.respectTransparency.types false in
/-- The segment-reduce call over the thread state: entered from every unscoped buffer at `W1`, left at `W2`.
    Its arrays are split out of the unscoped buffers at entry and put back at their exit contents; the generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather-and-multiply call over the thread state: entered from every unscoped buffer at `W5`, left at `W6`.
    Its arrays are split out of the unscoped buffers at entry and put back at their exit contents; the generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]

/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final memory holds every unscoped buffer at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The arguments end as launched -/

/-- `main_arg0` reaches the return as launched: no host operation writes it and neither call has it as an output. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- `main_arg1` reaches the return as launched: no host operation writes it and neither call has it as an output. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` reaches the return as launched: no host operation writes it and neither call has it as an output. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the return as launched: no host operation writes it and neither call has it as an output. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- THE FRAME, at any `F`: every weakly fair execution of @main terminates, nothing faulting, and the four argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run m ρ)

end Cert.Kernel.Hand

end
-- ==== Proof.R0Runs.lean ====
/-
  The segment-reduce call (the first of the two pallas_calls), what its runs share. The body branches once, on the
  grid position: at the first grid point it clears the two scratch accumulators (sums and counts) before adding the
  point's partial sums, at every later point it only adds. Stated here: that condition and where it holds, the
  staging and scratch memrefs the body is called with, and the class invariant spelled with the two scratch
  accumulators named apart from the other scoped buffers (the second call's staging), which the body never touches.
-/
import proofs.«405616_j738734375755_1_alg».proof.Proof.Gen.KernelIdeal.Launch
import proofs.«405616_j738734375755_1_alg».proof.Proof.Gen.KernelIdeal.Skeleton
import proofs.«405616_j738734375755_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the printed scalar chain computes it from the coordinate. -/
abbrev cond0 (i : grid0.Coords) : Prop :=
  (Scalar.cmpi .ne (Scalar.extui (Scalar.cmpi .eq (BitVec.ofNat 32 (i 0).val) 0#32)) 0#32) = 1#1

/-- It holds exactly at the first of the 245 points (decided over the grid). -/
theorem hcond0 : ∀ t : Fin cfg0.N, cond0 (grid0.coords t) ↔ t.val = 0 :=
  (by decide +kernel : ∀ t : Fin grid0.N, cond0 (grid0.coords t) ↔ t.val = 0)

/-- No window of the call is ever idle. -/
theorem liveAt0 : ∀ (w : Fin cfg0.W) (t : Fin cfg0.N), cfg0.idle w (grid0.coords t) = false := by decide +kernel

/-- Each window's current staging memref at point `t`, as the pipeline passes it, and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)

/-- The two scratch accumulators: the running segment sums and the running segment counts. -/
abbrev scSum : Memref sig .tc .vmem S16x128 .f32 := Memref.whole cc0_scratch0
abbrev scCnt : Memref sig .tc .vmem S16x128 .f32 := Memref.whole cc0_scratch1

/-- Views through which the contents of the two outputs' staging buffers and of the two accumulators are stated. -/
abbrev VO2 : View sig .tc .vmem S16x128 .f32 := (Memref.whole cc0_stg2_0 : Memref sig .tc .vmem S16x128 .f32).view
abbrev VO3 : View sig .tc .vmem S16x128 .f32 := (Memref.whole cc0_stg3_0 : Memref sig .tc .vmem S16x128 .f32).view
abbrev VSum : View sig .tc .vmem S16x128 .f32 := scSum.view
abbrev VCnt : View sig .tc .vmem S16x128 .f32 := scCnt.view

/-- The scoped buffers the first call neither stages nor uses as scratch: the second call's staging buffers, each
    whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of the first call, with the two accumulators as memrefs owned at some contents. -/
theorem PhiA0_eq (c : Dev nD) :
    (Pipeline.ΦA spec0 c : sProp 𝕄)
      = iprop(iprop((∃ d, owns (c : Thread nD τ) scSum fullShare d) ∗ (∃ d, owns (c : Thread nD τ) scCnt fullShare d) ∗ otherScoped c) ∗ (∃ r, prngReg c r)) := by
  unfold Pipeline.ΦA otherScoped; rw [scopedRest0_eq]; simp only [scSum, scCnt, owns_whole]; try rfl

end Cert.KernelIdeal.Hand

end
-- ==== Proof.R0RunA.lean ====
/-
  The segment-reduce body at the FIRST grid point, run whole: it clears both accumulators, adds the point's partial
  segment sums and counts to them, and copies each accumulator to its output window's staging buffer. What each of
  the four buffers ends holding is stated as the pieces its stores leave (last store first).
-/
import proofs.«405616_j738734375755_1_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is taken (grid point 0): on whole memrefs, the two inputs at their blocks, the two
    outputs' staging buffers and the two accumulators at anything, it runs to the continuation holding the inputs as
    they were and each of the other four with the pieces its stores leave written. -/
noncomputable def kernelRun0_A (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    Σ' (L2 : List (View.Piece (Elt F) S16x128 .f32)) (L3 : List (View.Piece (Elt F) S16x128 .f32)) (LS5 : List (View.Piece (Elt F) S16x128 .f32)), { LS6 : List (View.Piece (Elt F) S16x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds5, %fs5, -, HS5⟩, ⟨%ds6, %fs6, -, HS6⟩, Hk⟩
    obtain rfl := harg1.eq_unread hf0; obtain rfl := harg2.eq_unread hf1
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS5]; · iexists _; iexact HS5
    iexists _; iexact HS6

end Cert.KernelIdeal.Hand

end
-- ==== Proof.R0RunB.lean ====
/-
  The segment-reduce body at a LATER grid point, run whole: the branch is not taken, so it adds the point's partial
  segment sums and counts to what the accumulators held, and copies each accumulator to its output window's staging
  buffer. What each of the four buffers ends holding is stated as the pieces its stores leave.
-/
import proofs.«405616_j738734375755_1_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the branch is not taken (every grid point but the first): on whole memrefs, the two inputs at
    their blocks, the accumulators at what the point before left (`xs5`, `xs6`), the outputs' staging buffers at
    anything, it runs to the continuation holding the inputs as they were and each of the other four with the pieces
    its stores leave written. -/
noncomputable def kernelRun0_B (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 : Vec F S16x128 .f32) (xs6 : Vec F S16x128 .f32) :
    Σ' (L2 : List (View.Piece (Elt F) S16x128 .f32)) (L3 : List (View.Piece (Elt F) S16x128 .f32)) (LS5 : List (View.Piece (Elt F) S16x128 .f32)), { LS6 : List (View.Piece (Elt F) S16x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs5 ∗ owns (c : Thread nD τ) arg6 fullShare xs6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS5) ∗ (∃ f, arg6.view.loc (c : Thread nD τ) ↦[arg6.view.set]{fullShare} arg6.view.writes (Elt F) f LS6)) -∗ K ⟨⟩))
          ⊢ wp frame (wpE (defs₀ (F := F)) Variants.none c none) E (cc0__reduce_kernel i arg1 harg1 arg2 harg2 arg3 harg3 arg4 harg4 arg5 harg5 arg6 harg6) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs5, %hfs5, HS5⟩, ⟨%fs6, %hfs6, HS6⟩, Hk⟩
    obtain rfl := harg1.eq_unread hf0; obtain rfl := harg2.eq_unread hf1; obtain rfl := harg5.eq_unread hfs5; obtain rfl := harg6.eq_unread hfs6
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS5]; · iexists _; iexact HS5
    iexists _; iexact HS6

end Cert.KernelIdeal.Hand

end
-- ==== Proof.R0Pieces.lean ====
/-
  What the two runs of the segment-reduce body leave, read back as values. In either case the sum accumulator and
  the sum output's staging buffer end at the point's partial segment sums added to what the accumulator held (the
  cleared block at the first point), and the count accumulator and the count output's staging buffer at the point's
  partial segment counts added likewise: each buffer's last store covers it, and every load the body makes after a
  store reads that store's payload back.
-/
import proofs.«405616_j738734375755_1_alg».proof.Proof.R0RunA
import proofs.«405616_j738734375755_1_alg».proof.Proof.R0RunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-- A load through the whole-buffer rectangle, after stores of which the LAST is a store through that rectangle,
    reads that store's payload, whatever the earlier stores were. -/
theorem readCov_cons_unit_zero {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- At the first grid point the stores into the segment-sum output's staging buffer tile it. -/
theorem cover0_A_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).1, y ∈ pc.1.set :=
  View.cover_of_tiledL (kernelRun0_A c i arg1 harg1 arg2 harg2 arg3 harg3 arg4 harg4 arg5 harg5 arg6 harg6 hc0 x0 x1).1 S16x128.size (by sl_kernel_rfl) y

/-- and leave in it the point's partial sums added to the cleared block. -/
theorem canon0_A_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).1 = k0_pay4 x0 x1 (k0_pay1 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the segment-sum output's staging buffer tile it. -/
theorem cover0_B_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).1, y ∈ pc.1.set :=
  View.cover_of_tiledL (kernelRun0_B c i arg1 harg1 arg2 harg2 arg3 harg3 arg4 harg4 arg5 harg5 arg6 harg6 hc0 x0 x1 xs5 xs6).1 S16x128.size (by sl_kernel_rfl) y

/-- and leave in it the point's partial sums added to what the accumulator held. -/
theorem canon0_B_2 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).1 = k0_pay4 x0 x1 xs5 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At the first grid point the stores into the segment-count output's staging buffer tile it. -/
theorem cover0_A_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).2.1, y ∈ pc.1.set :=
  View.cover_of_tiledL (kernelRun0_A c i arg1 harg1 arg2 harg2 arg3 harg3 arg4 harg4 arg5 harg5 arg6 harg6 hc0 x0 x1).2.1 S16x128.size (by sl_kernel_rfl) y

/-- and leave in it the point's partial counts added to the cleared block. -/
theorem canon0_A_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).2.1 = k0_pay5 x1 (k0_pay2 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the segment-count output's staging buffer tile it. -/
theorem cover0_B_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).2.1, y ∈ pc.1.set :=
  View.cover_of_tiledL (kernelRun0_B c i arg1 harg1 arg2 harg2 arg3 harg3 arg4 harg4 arg5 harg5 arg6 harg6 hc0 x0 x1 xs5 xs6).2.1 S16x128.size (by sl_kernel_rfl) y

/-- and leave in it the point's partial counts added to what the accumulator held. -/
theorem canon0_B_3 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).2.1 = k0_pay5 x1 xs6 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At the first grid point the stores into the sum accumulator tile it. -/
theorem cover0_A_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).2.2.1, y ∈ pc.1.set :=
  View.cover_of_tiledL (kernelRun0_A c i arg1 harg1 arg2 harg2 arg3 harg3 arg4 harg4 arg5 harg5 arg6 harg6 hc0 x0 x1).2.2.1 S16x128.size (by sl_kernel_rfl) y

/-- and leave in it the point's partial sums added to the cleared block. -/
theorem canon0_A_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).2.2.1 = k0_pay4 x0 x1 (k0_pay1 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the sum accumulator tile it. -/
theorem cover0_B_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).2.2.1, y ∈ pc.1.set :=
  View.cover_of_tiledL (kernelRun0_B c i arg1 harg1 arg2 harg2 arg3 harg3 arg4 harg4 arg5 harg5 arg6 harg6 hc0 x0 x1 xs5 xs6).2.2.1 S16x128.size (by sl_kernel_rfl) y

/-- and leave in it the point's partial sums added to what the accumulator held. -/
theorem canon0_B_5 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).2.2.1 = k0_pay4 x0 x1 xs5 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At the first grid point the stores into the count accumulator tile it. -/
theorem cover0_A_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) (y : S16x128.Idx) :
    ∃ pc ∈ (kernelRun0_A c i arg1 harg1 arg2 harg2 arg3 harg3 arg4 harg4 arg5 harg5 arg6 harg6 hc0 x0 x1).2.2.2.1, y ∈ pc.1.set :=
  View.cover_of_tiledL (kernelRun0_A c i arg1 harg1 arg2 harg2 arg3 harg3 arg4 harg4 arg5 harg5 arg6 harg6 hc0 x0 x1).2.2.2.1 S16x128.size (by sl_kernel_rfl) y

/-- and leave in it the point's partial counts added to the cleared block. -/
theorem canon0_A_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : cond0 i)
    (x0 : Vec F S4096x128 .f32) (x1 : Vec F S4096 .i32) :
    View.canon (kernelRun0_A c i arg1 harg1 arg2 harg2 arg3 harg3 arg4 harg4 arg5 harg5 arg6 harg6 hc0 x0 x1).2.2.2.1 = k0_pay5 x1 (k0_pay2 (F := F)) := by
  unfold kernelRun0_A
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

/-- At a later grid point the stores into the count accumulator tile it. -/
theorem cover0_B_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) (y : S16x128.Idx) :
    ∃ pc ∈ (kernelRun0_B c i arg1 harg1 arg2 harg2 arg3 harg3 arg4 harg4 arg5 harg5 arg6 harg6 hc0 x0 x1 xs5 xs6).2.2.2.1, y ∈ pc.1.set :=
  View.cover_of_tiledL (kernelRun0_B c i arg1 harg1 arg2 harg2 arg3 harg3 arg4 harg4 arg5 harg5 arg6 harg6 hc0 x0 x1 xs5 xs6).2.2.2.1 S16x128.size (by sl_kernel_rfl) y

/-- and leave in it the point's partial counts added to what the accumulator held. -/
theorem canon0_B_6 (c : Dev nD) (i : grid0.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (hc0 : ¬cond0 i)
    (x0 : Vec F S4096x128 .f32) (x1 : Vec F S4096 .i32) (xs5 xs6 : Vec F S16x128 .f32) :
    View.canon (kernelRun0_B c i arg1 harg1 arg2 harg2 arg3 harg3 arg4 harg4 arg5 harg5 arg6 harg6 hc0 x0 x1 xs5 xs6).2.2.2.1 = k0_pay5 x1 xs6 := by
  unfold kernelRun0_B
  dsimp only
  sl_unfold_words
  simp only [View.canon_cons_unit_zero (S := S16x128) hz2, View.canon_unit_zero (S := S16x128) hz2, readCov_cons_unit_zero (S := S16x128) _ hz2, View.readCov_unit_zero (S := S16x128) _ hz2, View.readAt_eq_ld, harg1.read_unread, harg2.read_unread, harg5.read_unread, harg6.read_unread, View.ld_unit_zero (S := S4096x128) hz2, View.ld_unit_zero (S := S4096) hz1, View.ld_unit_zero (S := S16x128) hz2]

end Cert.KernelIdeal.Hand

end
-- ==== Proof.R0Body.lean ====
/-
  The segment-reduce call at an entry valuation `V` (the TensorCore's buffer contents when the call is entered):
  the running accumulators, the proof data and the body obligation.

  After grid point n the sum accumulator holds the partial segment sums of blocks 0 … n added up in point order
  from the cleared block, and the count accumulator the partial segment counts likewise (`acc0`, by recursion on
  the point). The region invariant carries both accumulators between points at exactly those contents; each output
  window's staging buffer is left at the accumulator's contents at every point (the pipeline writes the two blocks
  back once, after the last point).
-/
import proofs.«405616_j738734375755_1_alg».proof.Proof.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the padded data is in its staging buffer at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the block of padded segment ids. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running accumulators -/

/-- What the sum accumulator (first component) and the count accumulator (second) hold after grid point `n`: at the
    first point the point's partial sums / counts added to the cleared block, afterwards added to what the point
    before left. -/
def acc0 (c : Dev nD) : (n : ℕ) → n < cfg0.N → Vec F S16x128 .f32 × Vec F S16x128 .f32
  | 0, hn => (k0_pay4 (iblk0 V c 0 ⟨0, hn⟩) (iblk0 V c 1 ⟨0, hn⟩) (k0_pay1 (F := F)), k0_pay5 (iblk0 V c 1 ⟨0, hn⟩) (k0_pay2 (F := F)))
  | n + 1, hn => (k0_pay4 (iblk0 V c 0 ⟨n + 1, hn⟩) (iblk0 V c 1 ⟨n + 1, hn⟩) (acc0 c n (Nat.lt_of_succ_lt hn)).1,
      k0_pay5 (iblk0 V c 1 ⟨n + 1, hn⟩) (acc0 c n (Nat.lt_of_succ_lt hn)).2)

theorem acc0_first (c : Dev nD) (t : Fin cfg0.N) (h : t.val = 0) :
    acc0 V c t.val t.isLt = (k0_pay4 (iblk0 V c 0 t) (iblk0 V c 1 t) (k0_pay1 (F := F)), k0_pay5 (iblk0 V c 1 t) (k0_pay2 (F := F))) := by
  obtain ⟨n, hn⟩ := t
  cases n with
  | zero => rfl
  | succ n => exact absurd h (Nat.succ_ne_zero n)

theorem acc0_later (c : Dev nD) (t : Fin cfg0.N) (h : t.val ≠ 0) :
    acc0 V c t.val t.isLt = (k0_pay4 (iblk0 V c 0 t) (iblk0 V c 1 t) (acc0 V c (t.val - 1) (Nat.lt_of_le_of_lt (Nat.sub_le _ _) t.isLt)).1,
      k0_pay5 (iblk0 V c 1 t) (acc0 V c (t.val - 1) (Nat.lt_of_le_of_lt (Nat.sub_le _ _) t.isLt)).2) := by
  obtain ⟨n, hn⟩ := t
  cases n with
  | zero => exact absurd rfl h
  | succ n => rfl

/-! ## The region invariant -/

/-- Before grid point `n`: at the first point the class invariant (both accumulators at anything); afterwards both
    accumulators at what the point before left, the other scoped buffers at anything, the generator register at
    some state. -/
def Phi0 (c : Dev nD) : (n : ℕ) → n ≤ cfg0.N → sProp 𝕄
  | 0, _ => Pipeline.ΦA spec0 c
  | n + 1, hn => iprop(iprop(owns (c : Thread nD τ) scSum fullShare (acc0 V c n hn).1 ∗ owns (c : Thread nD τ) scCnt fullShare (acc0 V c n hn).2 ∗ otherScoped c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scSum fullShare (acc0 V c n hn).1 ∗ owns (c : Thread nD τ) scCnt fullShare (acc0 V c n hn).2 ∗ otherScoped c) ∗ (∃ r, prngReg c r)) := rfl

theorem Phi0_pos (c : Dev nD) (n : ℕ) (h : n ≤ cfg0.N) (hz : n ≠ 0) :
    Phi0 V c n h = iprop(iprop(owns (c : Thread nD τ) scSum fullShare (acc0 V c (n - 1) (by omega)).1 ∗ owns (c : Thread nD τ) scCnt fullShare (acc0 V c (n - 1) (by omega)).2 ∗ otherScoped c) ∗ (∃ r, prngReg c r)) := by
  cases n with
  | zero => exact absurd rfl hz
  | succ n => rfl

/-! ## The proof data -/

/-- The proof data of the segment-reduce call on core `c`: the arrays as the call finds them; after the body at
    point `t` each input's buffer at its block and the two outputs' at the accumulators' contents; the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4800000 in
/-- The body at any point. The inputs' memrefs hold their blocks; whether the point is the first decides the case.
    The invariant hands the body the accumulators (at anything at the first point, at what the point before left
    afterwards) and takes them back at this point's contents; each output's staging buffer comes back at the
    accumulator's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [after0_0, after0_1, after0_2, after0_3]
  by_cases hz : t.val = 0
  · rw [acc0_first V c t hz]; dsimp only
    rw [Phi0_castSucc V c t, Phi0_zero V c _ _ hz, PhiA0_eq]
    iintro ⟨⟨⟨HS5, HS6, Hoth⟩, Hg⟩, Ho, ⟨%d0, H0⟩, ⟨%d1, H1⟩, ⟨%d2, H2⟩, ⟨%d3, H3⟩⟩
    iapply ((kernelRun0_A c (grid0.coords t) _ _ _ _ _ _ _ _ _ _ _ _ ((hcond0 t).mpr hz) (iblk0 V c 0 t) (iblk0 V c 1 t)).2.2.2.2 Set.univ _)
    isplitl [H0]; · iexact H0
    isplitl [H1]; · iexact H1
    isplitl [H2]; · iexists _; iexact H2
    isplitl [H3]; · iexists _; iexact H3
    isplitl [HS5]; · iexact HS5
    isplitl [HS6]; · iexact HS6
    iintro ⟨H0, H1, ⟨%e2, H2⟩, ⟨%e3, H3⟩, ⟨%es5, HS5⟩, ⟨%es6, HS6⟩⟩
    isplitl [HS5 HS6 Hoth Hg]
    · isplitl [HS5 HS6 Hoth]
      · isplitl [HS5]
        · unfold owns; iexists _; isplitr
          swap; · iexact HS5
          ipureintro; exact (View.read_writes_eq_canon _ _ _ (cover0_A_5 c _ _ _ _ _ _ _ _ _ _ _ _ _ _ _ _)).trans (canon0_A_5 c _ _ _ _ _ _ _ _ _ _ _ _ _ _ _ _)
        isplitl [HS6]
        · unfold owns; iexists _; isplitr
          swap; · iexact HS6
          ipureintro; exact (View.read_writes_eq_canon _ _ _ (cover0_A_6 c _ _ _ _ _ _ _ _ _ _ _ _ _ _ _ _)).trans (canon0_A_6 c _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact (View.read_writes_eq_canon _ _ _ (cover0_A_2 c _ _ _ _ _ _ _ _ _ _ _ _ _ _ _ _)).trans (canon0_A_2 c _ _ _ _ _ _ _ _ _ _ _ _ _ _ _ _)
    unfold owns; iexists _; isplitr
    swap; · iexact H3
    ipureintro; exact (View.read_writes_eq_canon _ _ _ (cover0_A_3 c _ _ _ _ _ _ _ _ _ _ _ _ _ _ _ _)).trans (canon0_A_3 c _ _ _ _ _ _ _ _ _ _ _ _ _ _ _ _)
  · rw [acc0_later V c t hz]; dsimp only
    rw [Phi0_castSucc V c t, Phi0_pos V c _ _ hz]
    iintro ⟨⟨⟨HS5, HS6, Hoth⟩, Hg⟩, Ho, ⟨%d0, H0⟩, ⟨%d1, H1⟩, ⟨%d2, H2⟩, ⟨%d3, H3⟩⟩
    iapply ((kernelRun0_B c (grid0.coords t) _ _ _ _ _ _ _ _ _ _ _ _ (fun h => hz ((hcond0 t).mp h)) (iblk0 V c 0 t) (iblk0 V c 1 t) _ _).2.2.2.2 Set.univ _)
    isplitl [H0]; · iexact H0
    isplitl [H1]; · iexact H1
    isplitl [H2]; · iexists _; iexact H2
    isplitl [H3]; · iexists _; iexact H3
    isplitl [HS5]; · iexact HS5
    isplitl [HS6]; · iexact HS6
    iintro ⟨H0, H1, ⟨%e2, H2⟩, ⟨%e3, H3⟩, ⟨%es5, HS5⟩, ⟨%es6, HS6⟩⟩
    isplitl [HS5 HS6 Hoth Hg]
    · isplitl [HS5 HS6 Hoth]
      · isplitl [HS5]
        · unfold owns; iexists _; isplitr
          swap; · iexact HS5
          ipureintro; exact (View.read_writes_eq_canon _ _ _ (cover0_B_5 c _ _ _ _ _ _ _ _ _ _ _ _ _ _ _ _ _ _)).trans (canon0_B_5 c _ _ _ _ _ _ _ _ _ _ _ _ _ _ _ _ _ _)
        isplitl [HS6]
        · unfold owns; iexists _; isplitr
          swap; · iexact HS6
          ipureintro; exact (View.read_writes_eq_canon _ _ _ (cover0_B_6 c _ _ _ _ _ _ _ _ _ _ _ _ _ _ _ _ _ _)).trans (canon0_B_6 c _ _ _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact (View.read_writes_eq_canon _ _ _ (cover0_B_2 c _ _ _ _ _ _ _ _ _ _ _ _ _ _ _ _ _ _)).trans (canon0_B_2 c _ _ _ _ _ _ _ _ _ _ _ _ _ _ _ _ _ _)
    unfold owns; iexists _; isplitr
    swap; · iexact H3
    ipureintro; exact (View.read_writes_eq_canon _ _ _ (cover0_B_3 c _ _ _ _ _ _ _ _ _ _ _ _ _ _ _ _ _ _)).trans (canon0_B_3 c _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call (the class invariant) is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 245 := N_0; omega), PhiA0_eq]
  iintro ⟨⟨HS5, HS6, Hoth⟩, Hg⟩
  isplitl [HS5 HS6 Hoth]
  · isplitl [HS5]; · iexists _; iexact HS5
    isplitl [HS6]; · iexists _; iexact HS6
    iexact Hoth
  iexact Hg

end Cert.KernelIdeal.Hand

end
-- ==== Proof.R1Body.lean ====
/-
  The gather-and-multiply call (the second pallas_call) at an entry valuation `V`: the body keeps nothing between
  grid points and has one control path — it loads a row block of the padded data, the block's segment ids and the
  whole 16×128 gate table, and stores into the output block the data times the gate row each id selects (as a one-hot
  matrix product). So its proof data is direct: each input's staging buffer at its block, the output's at that one
  store's payload of the three blocks, the class invariant untouched.
-/
import proofs.«405616_j738734375755_1_alg».proof.Proof.Gen.KernelIdeal.Launch
import proofs.«405616_j738734375755_1_alg».proof.Proof.Gen.KernelIdeal.Skeleton
import proofs.«405616_j738734375755_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the gate
    table is fetched once, its block index never moving), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output block -/

abbrev rX : Rect S4096x128 := Rect.unit (s := S4096x128) ![0, 0] S4096x128.size inb_S4096x128_S4096x128_0_0
abbrev rI : Rect S4096 := Rect.unit (s := S4096) ![0] S4096.size inb_S4096_S4096_0
abbrev rG : Rect S16x128 := Rect.unit (s := S16x128) ![0, 0] S16x128.size inb_S16x128_S16x128_0_0

theorem hzX : (![0, 0] : Fin 2 → Nat) = fun _ => 0 := funext fun a => by fin_cases a <;> rfl

/-- The output block's staging buffer after the body, from the three input blocks: its one store, as a piece. -/
def out1_3 (x0 : Vec F S4096x128 .f32) (x1 : Vec F S4096 .i32) (x2 : Vec F S16x128 .f32) : Vec F S4096x128 .f32 :=
  View.canon [⟨rX, k1_pay1 (View.ld x0 rX) (View.ld x1 rI) (View.ld x2 rG)⟩]

/-- That store covers the buffer. -/
theorem cover1_3 (p0 : Vec F S4096x128 .f32) (y : S4096x128.Idx) :
    ∃ pc ∈ ([⟨rX, p0⟩] : List (View.Piece (Elt F) S4096x128 .f32)), y ∈ pc.1.set :=
  ⟨_, List.mem_singleton_self _, View.mem_set_unit_zero hzX inb_S4096x128_S4096x128_0_0 y⟩

/-! ## The body's triple -/

set_option maxHeartbeats 4000000 in
/-- The body on whole staging memrefs, the inputs' at their contents and the output's at anything, runs to the
    continuation holding the inputs' as they were and the output's at `out1_3` of the inputs'. -/
theorem sound_kernel1 (c : Dev nD) (E : Set ℕ) (i : grid1.Coords) (arg1 : Memref sig .tc .vmem S4096x128 .f32) (harg1 : arg1.IsWhole) (arg2 : Memref sig .tc .vmem S4096 .i32) (harg2 : arg2.IsWhole) (arg3 : Memref sig .tc .vmem S16x128 .f32) (harg3 : arg3.IsWhole) (arg4 : Memref sig .tc .vmem S4096x128 .f32) (harg4 : arg4.IsWhole)
    (x0 : Vec F S4096x128 .f32) (x1 : Vec F S4096 .i32) (x2 : Vec F S16x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gather_mul_kernel i arg1 harg1 arg2 harg2 arg3 harg3 arg4 harg4) K := by
  simp only [cc1__gather_mul_kernel_eq_skeleton]; unfold cc1__gather_mul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The proof data of the gather-and-multiply call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Fold.lean ====
/-
  The buffer contents at each boundary of @main, as a fold from the launch memory: a stretch of host operations
  applies them in order; a pallas_call leaves each of its arrays at what the pipeline's write-backs leave (an input
  as entered) and every other buffer as entered. @main is: six host operations (the padding of the data with zero
  rows and of the segment ids with the id 16), the segment-reduce call, nineteen host operations in three stretches
  (the segment means, the two small matrix products, the sigmoid: the 16×128 gate table), the gather-and-multiply
  call, one host operation (the slice that drops the padding rows).
-/
import proofs.«405616_j738734375755_1_alg».proof.Proof.R0Body
import proofs.«405616_j738734375755_1_alg».proof.Proof.R1Body
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the padding (the segment-reduce call's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- At the segment-reduce call's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the segment means and the first matrix product; after the relu; after the second matrix product and the
    sigmoid (the gather-and-multiply call's entry). -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev V5 : (c : Dev nD) → (b : Ref sig .tc) → Buf (Elt F) ((c : Thread nD τ).loc b) := fun c b => W5 m c b
/-- At the gather-and-multiply call's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the final slice (the return). -/
abbrev W7 (c : Dev nD) : Valuation τ sig (Elt F) := StableHlo.after hostOps2 (W6 m c)

end Cert.KernelIdeal.Hand

end
-- ==== Proof.Run.lean ====
/-
  The run of @main: its seven items as segments (a host segment per stretch of host operations from its boundary's
  contents, a region per pallas_call), every pipeline's proof data at its call's entry contents, and the launch —
  every weakly fair execution terminates, nothing faulting, and every final memory holds each unscoped buffer at
  the last boundary's contents `W7`. The frame claim (the four argument arrays end as launched) is read off that:
  no host operation writes an argument and neither call has one as an output.
-/
import proofs.«405616_j738734375755_1_alg».proof.Proof.Fold
import proofs.«405616_j738734375755_1_alg».proof.Proof.Gen.KernelIdeal.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W7 m c) ∗ ∃ r, prngReg c r)

/-! ## The two calls as segments -/

set_option backward.isDefEq.respectTransparency.types false in
/-- The segment-reduce call over the thread state: entered from every unscoped buffer at `W1`, left at `W2`.
    Its arrays are split out of the unscoped buffers at entry and put back at their exit contents; the generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (V1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather-and-multiply call over the thread state: entered from every unscoped buffer at `W5`, left at `W6`.
    Its arrays are split out of the unscoped buffers at entry and put back at their exit contents; the generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]

/-- @main is the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final memory holds every unscoped buffer at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The arguments end as launched -/

/-- `main_arg0` reaches the return as launched: no host operation writes it and neither call has it as an output. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- `main_arg1` reaches the return as launched: no host operation writes it and neither call has it as an output. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` reaches the return as launched: no host operation writes it and neither call has it as an output. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the return as launched: no host operation writes it and neither call has it as an output. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- THE FRAME, at any `F`: every weakly fair execution of @main terminates, nothing faulting, and the four argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run m ρ)

end Cert.KernelIdeal.Hand

end
-- ==== Proof.Spec.lean ====
/-
  The mathematics both programs compute, over the extended reals, stated with no program in sight.

  For data x (1,000,000 rows of 128 channels) and a segment id in 0 … 15 per row: the segment sum S(s, c) is the sum
  of x(r, c) over the rows r of segment s, and the segment count N(s) the number of such rows. Both are written as
  sums over ALL rows of a one-hot weight (1 if the row's id is s, else 0) times the entry, which is the form the
  kernel's one-hot matrix product has and the form a scatter-add reduces to. The kernel computes them block by
  block over the data padded to 245 blocks of 4096 rows (zero rows, id 16): a sum over the padded rows, taken block
  by block, is the sum over the real rows.
-/
import Idealize.ShloMosaic.PureOps.Ideal
import Idealize.ShloMosaic.Lib.ValueIdx
import Mathlib.Algebra.BigOperators.Fin
import Mathlib.Algebra.BigOperators.Intervals

noncomputable section

open scoped BigOperators

namespace Cert.Spec

open Idealize.ShloMosaic Idealize.ShloMosaic.ValueIdx

/-- The one-hot weight of segment `s` at a row whose segment id is the word `b`. -/
def hot (b : BitVec 32) (s : Fin 16) : EReal := if b = BitVec.ofNat 32 s.val then 1 else 0

theorem hot_eq_one {b : BitVec 32} {s : Fin 16} (h : b = BitVec.ofNat 32 s.val) : hot b s = 1 := if_pos h
theorem hot_eq_zero {b : BitVec 32} {s : Fin 16} (h : b ≠ BitVec.ofNat 32 s.val) : hot b s = 0 := if_neg h

/-- The segment of a row whose id is the word `b` (meaningful when `b` is in range). -/
def rowOf (b : BitVec 32) : Fin 16 := ⟨b.toNat % 16, Nat.mod_lt _ (by decide)⟩

theorem ofNat_rowOf {b : BitVec 32} (h : b.toNat < 16) : BitVec.ofNat 32 (rowOf b).val = b := by
  apply BitVec.eq_of_toNat_eq
  simp only [rowOf, BitVec.toNat_ofNat, Nat.mod_eq_of_lt h]
  omega

/-- An in-range id is the id of exactly one segment: the one-hot weights against any 16 values pick that one. -/
theorem sum_hot_mul {b : BitVec 32} (h : b.toNat < 16) (g : Fin 16 → EReal) :
    ∑ s : Fin 16, hot b s * g s = g (rowOf b) := by
  rw [Finset.sum_eq_single (rowOf b)]
  · rw [hot_eq_one (ofNat_rowOf h).symm, one_mul]
  · intro s _ hs
    rw [hot_eq_zero, zero_mul]
    intro e
    apply hs
    apply Fin.ext
    have := congrArg BitVec.toNat e
    simp only [BitVec.toNat_ofNat] at this
    have hs16 : s.val < 16 := s.isLt
    simp only [rowOf]
    omega
  · intro hn; exact absurd (Finset.mem_univ _) hn

/-- The id 16 of a padding row is no segment's. -/
theorem hot_pad (s : Fin 16) : hot 16#32 s = 0 := by
  apply hot_eq_zero
  intro e
  have := congrArg BitVec.toNat e
  simp only [BitVec.toNat_ofNat] at this
  have hs16 : s.val < 16 := s.isLt
  omega

/-- A two-axis array read at a row given as a natural number: zero past the last row. -/
def natRow2 {n k : ℕ} (x : (⟨2, ![n, k]⟩ : Shape).Idx → EReal) (j : ℕ) (c : Fin k) : EReal :=
  if h : j < n then x (ix2 ⟨j, h⟩ c) else 0

/-- A vector of segment ids read at a position given as a natural number: the padding id 16 past its end. -/
def natRow1 {n : ℕ} (i : (⟨1, ![n]⟩ : Shape).Idx → BitVec 32) (j : ℕ) : BitVec 32 :=
  if h : j < n then i (ix1 ⟨j, h⟩) else 16#32

theorem natRow2_of_lt {n k : ℕ} (x : (⟨2, ![n, k]⟩ : Shape).Idx → EReal) {j : ℕ} (h : j < n) (c : Fin k) :
    natRow2 x j c = x (ix2 ⟨j, h⟩ c) := dif_pos h
theorem natRow2_of_ge {n k : ℕ} (x : (⟨2, ![n, k]⟩ : Shape).Idx → EReal) {j : ℕ} (h : n ≤ j) (c : Fin k) :
    natRow2 x j c = 0 := dif_neg (Nat.not_lt.2 h)
theorem natRow1_of_lt {n : ℕ} (i : (⟨1, ![n]⟩ : Shape).Idx → BitVec 32) {j : ℕ} (h : j < n) :
    natRow1 i j = i (ix1 ⟨j, h⟩) := dif_pos h
theorem natRow1_of_ge {n : ℕ} (i : (⟨1, ![n]⟩ : Shape).Idx → BitVec 32) {j : ℕ} (h : n ≤ j) :
    natRow1 i j = 16#32 := dif_neg (Nat.not_lt.2 h)

/-- The segment sum at segment `s`, channel `c`. -/
def segSum (x : (⟨2, ![1000000, 128]⟩ : Shape).Idx → EReal) (idx : (⟨1, ![1000000]⟩ : Shape).Idx → BitVec 32)
    (s : Fin 16) (c : Fin 128) : EReal :=
  ∑ r : Fin 1000000, hot (idx (ix1 r)) s * x (ix2 r c)

/-- The segment count at segment `s`. -/
def segCnt (idx : (⟨1, ![1000000]⟩ : Shape).Idx → BitVec 32) (s : Fin 16) : EReal :=
  ∑ r : Fin 1000000, hot (idx (ix1 r)) s

/-- A sum over the 1,003,520 padded rows taken as 245 blocks of 4096 rows, in block order, is the sum over the rows. -/
theorem sum_blocks (f : ℕ → EReal) :
    ∑ t ∈ Finset.range 245, ∑ r : Fin 4096, f (4096 * t + r.val) = ∑ j ∈ Finset.range 1003520, f j := by
  have h : ∀ n : ℕ, ∑ t ∈ Finset.range n, ∑ r : Fin 4096, f (4096 * t + r.val) = ∑ j ∈ Finset.range (4096 * n), f j := by
    intro n
    induction n with
    | zero => simp
    | succ n ih =>
      rw [Finset.sum_range_succ, ih, show 4096 * (n + 1) = 4096 * n + 4096 by ring, Finset.sum_range_add,
        Fin.sum_univ_eq_sum_range (fun k => f (4096 * n + k)) 4096]
  exact h 245

/-- Padding rows that contribute nothing can be dropped. -/
theorem sum_padded (f : ℕ → EReal) (h : ∀ j, 1000000 ≤ j → f j = 0) :
    ∑ j ∈ Finset.range 1003520, f j = ∑ r : Fin 1000000, f r.val := by
  rw [show (1003520 : ℕ) = 1000000 + 3520 by norm_num, Finset.sum_range_add, Fin.sum_univ_eq_sum_range (fun k => f k) 1000000]
  rw [Finset.sum_eq_zero (fun k _ => h _ (Nat.le_add_right _ _)), add_zero]

end Cert.Spec

end
-- ==== Proof.Val0.lean ====
/-
  The segment-reduce call's result arrays as values, over the extended reals. After grid point n the sum
  accumulator holds, at segment s and channel c, the sum over the rows of blocks 0 … n of the one-hot weight of s at
  the row's id times the row's entry, and the count accumulator (every column alike) the sum of the weights; the one
  write-back, after the last point, leaves each result array at the accumulator's last contents.
-/
import proofs.«405616_j738734375755_1_alg».proof.Proof.R0Body
import proofs.«405616_j738734375755_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The payloads at an index -/

/-- The comparison matrix at row r and column s: the row's id against the word s. -/
private theorem pay3_apply (x1 : Vec Ideal S4096 .i32) (r : Fin 4096) (s : Fin 16) :
    k0_pay3 (F := Ideal) x1 (ix2 r s) = IntOp.cmpi .eq (x1 (ix1 r)) (BitVec.ofNat 32 s.val) := by
  unfold k0_pay3
  dsimp only
  show IntOp.cmpi .eq (broadcastTo S4096x16 _ _ (ix2 r s)) (iota .tc S4096x16 32 [1] _ (ix2 r s)) = _
  rw [shapeCast_self, shapeCast_self, iota_single_apply]
  rw [broadcastTo_apply _ _ (ix2 r s) (ix2 r (0 : Fin 1)) (fun a => by
    match a with
    | ⟨0, _⟩ => rfl
    | ⟨1, _⟩ => rfl)]
  rw [shapeCast_apply _ _ (ix2 r (0 : Fin 1)) (ix1 r) (by
    rw [Shape.rowMajor_val_one, Shape.rowMajor_val_two]
    show r.val = r.val * 1 + 0
    omega)]

/-- The comparison bit, widened to a word and read as a float, is the one-hot weight: 1 if the words agree, else 0. -/
private theorem hot_word (b : BitVec 32) (s : Fin 16) :
    (FloatOps.sitofp (F := Ideal) .f32 ((IntOp.cmpi .eq b (BitVec.ofNat 32 s.val)).setWidth 32) : Ideal .f32) = hot b s := by
  show (((((IntOp.cmpi .eq b (BitVec.ofNat 32 s.val)).setWidth 32).toInt : ℝ)) : EReal) = hot b s
  unfold IntOp.cmpi
  by_cases h : b = BitVec.ofNat 32 s.val
  · rw [hot_eq_one h]
    have e : (b == BitVec.ofNat 32 s.val) = true := by rw [beq_iff_eq]; exact h
    have e1 : (BitVec.setWidth 32 (BitVec.ofBool true)).toInt = 1 := by decide
    simp only [e, e1, Int.cast_one, EReal.coe_one]
  · rw [hot_eq_zero h]
    have e : (b == BitVec.ofNat 32 s.val) = false := by rw [beq_eq_false_iff_ne]; exact h
    have e0 : (BitVec.setWidth 32 (BitVec.ofBool false)).toInt = 0 := by decide
    simp only [e, e0, Int.cast_zero, EReal.coe_zero]

/-- The one-hot matrix as floats, at row r and segment s. -/
private theorem onehot_apply (x1 : Vec Ideal S4096 .i32) (r : Fin 4096) (s : Fin 16) :
    (sitofp .f32 (extui 32 (k0_pay3 (F := Ideal) x1) natLt_1_32) : FVec Ideal S4096x16 .f32) (ix2 r s) = hot (x1 (ix1 r)) s := by
  rw [sitofp_apply, extui_apply, pay3_apply]
  exact hot_word _ s

/-- The product's operand indices, axis by axis: both operands are contracted along their rows (axis 0); the left
    operand's column is the result's row, the right operand's column the result's column. -/
private theorem mm_lhs_0 (i : S16x128.Idx) (q : dot_S4096x16_S4096x128_S16x128_0_0_1_1_n_n.contr.Idx) :
    (dot_S4096x16_S4096x128_S16x128_0_0_1_1_n_n.lhsIdx i q 0).val = (q ⟨0, by decide⟩).val :=
  dot_S4096x16_S4096x128_S16x128_0_0_1_1_n_n.lhsIdx_val_of_single rfl i q
private theorem mm_lhs_1 (i : S16x128.Idx) (q : dot_S4096x16_S4096x128_S16x128_0_0_1_1_n_n.contr.Idx) :
    (dot_S4096x16_S4096x128_S16x128_0_0_1_1_n_n.lhsIdx i q 1).val = (i 0).val := by
  unfold DotDims.lhsIdx
  rw [dif_neg (show ¬(1 : Fin S4096x16.rank) ∈ dot_S4096x16_S4096x128_S16x128_0_0_1_1_n_n.lhsBatch by decide), dif_pos (show (1 : Fin S4096x16.rank) ∈ dot_S4096x16_S4096x128_S16x128_0_0_1_1_n_n.lhsNonContracting by decide)]
  rfl
private theorem mm_rhs_0 (i : S16x128.Idx) (q : dot_S4096x16_S4096x128_S16x128_0_0_1_1_n_n.contr.Idx) :
    (dot_S4096x16_S4096x128_S16x128_0_0_1_1_n_n.rhsIdx i q 0).val = (q ⟨0, by decide⟩).val :=
  dot_S4096x16_S4096x128_S16x128_0_0_1_1_n_n.rhsIdx_val_of_single rfl i q
private theorem mm_rhs_1 (i : S16x128.Idx) (q : dot_S4096x16_S4096x128_S16x128_0_0_1_1_n_n.contr.Idx) :
    (dot_S4096x16_S4096x128_S16x128_0_0_1_1_n_n.rhsIdx i q 1).val = (i 1).val := by
  unfold DotDims.rhsIdx
  rw [dif_neg (show ¬(1 : Fin S4096x128.rank) ∈ dot_S4096x16_S4096x128_S16x128_0_0_1_1_n_n.rhsBatch by decide), dif_pos (show (1 : Fin S4096x128.rank) ∈ dot_S4096x16_S4096x128_S16x128_0_0_1_1_n_n.rhsNonContracting by decide)]
  rfl

/-- The product of the transposed one-hot matrix with the block, into the zero block: at segment s and channel col the
    sum over the block's rows of the two entries' product. -/
private theorem mm_apply (L : FVec Ideal S4096x16 .bf16) (R : FVec Ideal S4096x128 .bf16) (s : Fin 16) (col : Fin 128) :
    matmul dot_S4096x16_S4096x128_S16x128_0_0_1_1_n_n none L R (constant (F := Ideal) S16x128 .f32 0x00000000#32) (ix2 s col)
      = ∑ r : Fin 4096, L (ix2 r s) * R (ix2 r col) := by
  simp only [matmul]
  rw [Ideal.matmul_constant_zero_apply, ← Equiv.sum_comp (contrEquiv1 dot_S4096x16_S4096x128_S16x128_0_0_1_1_n_n 4096 rfl rfl).symm]
  refine Finset.sum_congr rfl fun k _ => ?_
  have hk := contrEquiv1_symm_val dot_S4096x16_S4096x128_S16x128_0_0_1_1_n_n 4096 rfl rfl k
  have el : dot_S4096x16_S4096x128_S16x128_0_0_1_1_n_n.lhsIdx (ix2 s col) ((contrEquiv1 dot_S4096x16_S4096x128_S16x128_0_0_1_1_n_n 4096 rfl rfl).symm k) = ix2 k s := funext fun a => Fin.ext (by
    match a with
    | ⟨0, _⟩ => exact (mm_lhs_0 _ _).trans hk
    | ⟨1, _⟩ => exact mm_lhs_1 _ _)
  have er : dot_S4096x16_S4096x128_S16x128_0_0_1_1_n_n.rhsIdx (ix2 s col) ((contrEquiv1 dot_S4096x16_S4096x128_S16x128_0_0_1_1_n_n 4096 rfl rfl).symm k) = ix2 k col := funext fun a => Fin.ext (by
    match a with
    | ⟨0, _⟩ => exact (mm_rhs_0 _ _).trans hk
    | ⟨1, _⟩ => exact mm_rhs_1 _ _)
  rw [el, er]

/-- The sum accumulator's new contents: the old ones plus the block's partial segment sums. -/
private theorem pay4_apply (x0 : Vec Ideal S4096x128 .f32) (x1 : Vec Ideal S4096 .i32) (a : Vec Ideal S16x128 .f32) (s : Fin 16) (col : Fin 128) :
    k0_pay4 x0 x1 a (ix2 s col) = a (ix2 s col) + ∑ r : Fin 4096, hot (x1 (ix1 r)) s * x0 (ix2 r col) := by
  unfold k0_pay4
  rw [shapeCast_self, shapeCast_self, addf_apply, mm_apply]
  refine congrArg (a (ix2 s col) + ·) (Finset.sum_congr rfl fun r _ => ?_)
  rw [truncf_apply, truncf_apply, onehot_apply]

/-- The sum of a 4096 x 16 matrix over its rows, at column s. -/
private theorem colsum_apply (src : FVec Ideal S4096x16 .f32) (hφ : FKind.Formats .f32)
    (hacc : (0x00000000#32 : BitVec 32) = 0x00000000#32) (s : Fin 16) :
    multiReduction .add [0] S16 src 0x00000000#32 reduces_S4096x16_S16 hφ hacc (ix1 s) = ∑ r : Fin 4096, src (ix2 r s) := by
  refine (Ideal.multiReduction_add_single src 0x00000000#32 reduces_S4096x16_S16 hφ hacc (ix1 s)).trans ?_
  show ∑ k : Fin 4096, src (reduces_S4096x16_S16.lift (ix1 s) k) = _
  refine Finset.sum_congr rfl fun k _ => congrArg src (funext fun a => Fin.ext ?_)
  match a with
  | ⟨0, _⟩ => rfl
  | ⟨1, _⟩ => rfl

/-- The count accumulator's new contents: the old ones plus the block's partial segment counts, on every column. -/
private theorem pay5_apply (x1 : Vec Ideal S4096 .i32) (a : Vec Ideal S16x128 .f32) (s : Fin 16) (col : Fin 128) :
    k0_pay5 x1 a (ix2 s col) = a (ix2 s col) + ∑ r : Fin 4096, hot (x1 (ix1 r)) s := by
  unfold k0_pay5
  rw [shapeCast_self, shapeCast_self, addf_apply]
  refine congrArg (a (ix2 s col) + ·) ?_
  rw [broadcastTo_apply _ _ (ix2 s col) (ix2 s (0 : Fin 1)) (fun ax => by
    match ax with
    | ⟨0, _⟩ => rfl
    | ⟨1, _⟩ => rfl)]
  rw [shapeCast_apply _ _ (ix2 s (0 : Fin 1)) (ix1 s) (by
    rw [Shape.rowMajor_val_one, Shape.rowMajor_val_two]
    show s.val = s.val * 1 + 0
    omega)]
  refine (colsum_apply _ _ _ s).trans ?_
  exact Finset.sum_congr rfl fun r _ => onehot_apply x1 r s

/-- The cleared blocks are zero everywhere. -/
private theorem pay1_apply (j : S16x128.Idx) : (k0_pay1 (F := Ideal)) j = 0 := by
  unfold k0_pay1
  rw [shapeCast_self, broadcast_apply]
  exact Ideal.ofBits_zero_f32
private theorem pay2_apply (j : S16x128.Idx) : (k0_pay2 (F := Ideal)) j = 0 := by
  unfold k0_pay2
  rw [shapeCast_self, broadcast_apply]
  exact Ideal.ofBits_zero_f32

/-! ## The input blocks at an index -/

/-- Which block of its array each input window reads at a point: block t, along the rows. -/
private theorem index0_0 : ∀ t : Fin cfg0.N, win0_0.index t 0 = t.val ∧ win0_0.index t 1 = 0 :=
  (by decide +kernel : ∀ t : Fin grid0.N, win0_0.index t 0 = t.val ∧ win0_0.index t 1 = 0)
private theorem index0_1 : ∀ t : Fin cfg0.N, win0_1.index t 0 = t.val :=
  (by decide +kernel : ∀ t : Fin grid0.N, win0_1.index t 0 = t.val)

/-- Row r of the data block at point t is row 4096 t + r of the padded data. -/
private theorem iblk0_0_apply (c : Dev nD) (t : Fin cfg0.N) (r : Fin 4096) (col : Fin 128) (h : 4096 * t.val + r.val < 1003520) :
    (iblk0 V c 0 t : Vec Ideal S4096x128 .f32) (ix2 r col)
      = (V c main_v1 : Vec Ideal S1003520x128 .f32) (ix2 ⟨4096 * t.val + r.val, h⟩ col) := by
  have hi := index0_0 t
  unfold iblk0
  rw [View.read_apply]
  show V c main_v1 _ = V c main_v1 _
  congr 1
  funext a
  apply Fin.ext
  match a with
  | ⟨0, _⟩ => show win0_0.index t 0 * 4096 + 1 * r.val = 4096 * t.val + r.val; rw [hi.1]; omega
  | ⟨1, _⟩ => show win0_0.index t 1 * 128 + 1 * col.val = col.val; rw [hi.2]; omega

/-- Entry r of the id block at point t is entry 4096 t + r of the padded ids. -/
private theorem iblk0_1_apply (c : Dev nD) (t : Fin cfg0.N) (r : Fin 4096) (h : 4096 * t.val + r.val < 1003520) :
    (iblk0 V c 1 t : Vec Ideal S4096 .i32) (ix1 r)
      = (V c main_v3 : Vec Ideal S1003520 .i32) (ix1 ⟨4096 * t.val + r.val, h⟩) := by
  have hi := index0_1 t
  unfold iblk0
  rw [View.read_apply]
  show V c main_v3 _ = V c main_v3 _
  congr 1
  funext a
  apply Fin.ext
  match a with
  | ⟨0, _⟩ => show win0_1.index t 0 * 4096 + 1 * r.val = 4096 * t.val + r.val; rw [hi]; omega

/-! ## The accumulators after a point -/

/-- The sum accumulator after point `n`, at segment `s` and channel `col`. -/
theorem acc0_sum (c : Dev nD) (n : ℕ) (hn : n < cfg0.N) (s : Fin 16) (col : Fin 128) :
    ((acc0 V c n hn).1 : Vec Ideal S16x128 .f32) (ix2 s col)
      = ∑ t ∈ Finset.range (n + 1), ∑ r : Fin 4096,
          hot (natRow1 (V c main_v3 : Vec Ideal S1003520 .i32) (4096 * t + r.val)) s * natRow2 (V c main_v1 : Vec Ideal S1003520x128 .f32) (4096 * t + r.val) col := by
  have hN : cfg0.N = 245 := N_0
  induction n with
  | zero =>
    rw [Finset.sum_range_one]
    show k0_pay4 (iblk0 V c 0 ⟨0, hn⟩) (iblk0 V c 1 ⟨0, hn⟩) (k0_pay1 (F := Ideal)) (ix2 s col) = _
    refine (pay4_apply _ _ _ s col).trans ?_
    rw [pay1_apply, zero_add]
    refine Finset.sum_congr rfl fun r _ => ?_
    have h : 4096 * 0 + r.val < 1003520 := by have := r.isLt; omega
    rw [natRow1_of_lt _ h, natRow2_of_lt _ h, iblk0_0_apply V c ⟨0, hn⟩ r col h, iblk0_1_apply V c ⟨0, hn⟩ r h]
  | succ n ih =>
    rw [Finset.sum_range_succ, ← ih (Nat.lt_of_succ_lt hn)]
    show k0_pay4 (iblk0 V c 0 ⟨n + 1, hn⟩) (iblk0 V c 1 ⟨n + 1, hn⟩) (acc0 V c n (Nat.lt_of_succ_lt hn)).1 (ix2 s col) = _
    refine (pay4_apply _ _ _ s col).trans ?_
    refine congrArg (_ + ·) (Finset.sum_congr rfl fun r _ => ?_)
    have h : 4096 * (n + 1) + r.val < 1003520 := by have := r.isLt; omega
    rw [natRow1_of_lt _ h, natRow2_of_lt _ h, iblk0_0_apply V c ⟨n + 1, hn⟩ r col h, iblk0_1_apply V c ⟨n + 1, hn⟩ r h]

/-- The count accumulator after point `n`, at segment `s` (whatever the column). -/
theorem acc0_cnt (c : Dev nD) (n : ℕ) (hn : n < cfg0.N) (s : Fin 16) (col : Fin 128) :
    ((acc0 V c n hn).2 : Vec Ideal S16x128 .f32) (ix2 s col)
      = ∑ t ∈ Finset.range (n + 1), ∑ r : Fin 4096,
          hot (natRow1 (V c main_v3 : Vec Ideal S1003520 .i32) (4096 * t + r.val)) s := by
  have hN : cfg0.N = 245 := N_0
  induction n with
  | zero =>
    rw [Finset.sum_range_one]
    show k0_pay5 (iblk0 V c 1 ⟨0, hn⟩) (k0_pay2 (F := Ideal)) (ix2 s col) = _
    refine (pay5_apply _ _ s col).trans ?_
    rw [pay2_apply, zero_add]
    refine Finset.sum_congr rfl fun r _ => ?_
    have h : 4096 * 0 + r.val < 1003520 := by have := r.isLt; omega
    rw [natRow1_of_lt _ h, iblk0_1_apply V c ⟨0, hn⟩ r h]
  | succ n ih =>
    rw [Finset.sum_range_succ, ← ih (Nat.lt_of_succ_lt hn)]
    show k0_pay5 (iblk0 V c 1 ⟨n + 1, hn⟩) (acc0 V c n (Nat.lt_of_succ_lt hn)).2 (ix2 s col) = _
    refine (pay5_apply _ _ s col).trans ?_
    refine congrArg (_ + ·) (Finset.sum_congr rfl fun r _ => ?_)
    have h : 4096 * (n + 1) + r.val < 1003520 := by have := r.isLt; omega
    rw [natRow1_of_lt _ h, iblk0_1_apply V c ⟨n + 1, hn⟩ r h]

/-! ## The result arrays after the call -/

/-- The last of the 245 grid points: the one point at which the two result blocks are written back. -/
private abbrev tLast : Fin cfg0.N := ⟨244, by rw [show cfg0.N = 245 from N_0]; decide⟩

/-- Both result windows sit on block (0, 0) of their arrays at every point. -/
private theorem index0_2 : ∀ t : Fin cfg0.N, win0_2.index t 0 = 0 ∧ win0_2.index t 1 = 0 :=
  (by decide +kernel : ∀ t : Fin grid0.N, win0_2.index t 0 = 0 ∧ win0_2.index t 1 = 0)
private theorem index0_3 : ∀ t : Fin cfg0.N, win0_3.index t 0 = 0 ∧ win0_3.index t 1 = 0 :=
  (by decide +kernel : ∀ t : Fin grid0.N, win0_3.index t 0 = 0 ∧ win0_3.index t 1 = 0)

/-- A point at which a result block is written back is the last point. -/
private theorem eq_tLast_of_rem {t : Fin cfg0.N} (h : t.val % 245 = 244) : t = tLast := by
  have hN : cfg0.N = 245 := N_0
  refine Fin.ext ?_
  show t.val = 244
  have := t.isLt
  omega

/-- The sum result's block, written back at the last point, is the whole array read at the accumulator's last contents:
    the block is block (0, 0) and as large as the array. -/
private theorem flushed0_2 (c : Dev nD) (t : Fin cfg0.N) (hf : (cfg0.win 2).flush t = true) :
    (dat0 V c).flushed 2 t = ((cfg0.win 2).blk t).view.read (Elt Ideal) (acc0 V c 244 tLast.isLt).1 := by
  obtain rfl := eq_tLast_of_rem ((flush0_2 t).mp hf)
  have hoff : (fun a => win0_2.index tLast a * main_v4_0.ty.shape.size a) = fun _ => 0 := funext fun a => by
    match a with
    | ⟨0, _⟩ => show win0_2.index tLast 0 * 16 = 0; rw [(index0_2 tLast).1]
    | ⟨1, _⟩ => show win0_2.index tLast 1 * 128 = 0; rw [(index0_2 tLast).2]
  show (cfg0.win 2).cut (grid0.coords tLast) ((dat0 V c).after 2 tLast) = _
  rw [after0_2]
  exact (Memref.read_access_unit_zero (Elt Ideal) main_v4_0 hoff (fun a => by rw [congrFun hoff a]; exact Nat.le_of_eq (Nat.zero_add _)) _).symm

/-- The same for the count result's block. -/
private theorem flushed0_3 (c : Dev nD) (t : Fin cfg0.N) (hf : (cfg0.win 3).flush t = true) :
    (dat0 V c).flushed 3 t = ((cfg0.win 3).blk t).view.read (Elt Ideal) (acc0 V c 244 tLast.isLt).2 := by
  obtain rfl := eq_tLast_of_rem ((flush0_3 t).mp hf)
  have hoff : (fun a => win0_3.index tLast a * main_v4_1.ty.shape.size a) = fun _ => 0 := funext fun a => by
    match a with
    | ⟨0, _⟩ => show win0_3.index tLast 0 * 16 = 0; rw [(index0_3 tLast).1]
    | ⟨1, _⟩ => show win0_3.index tLast 1 * 128 = 0; rw [(index0_3 tLast).2]
  show (cfg0.win 3).cut (grid0.coords tLast) ((dat0 V c).after 3 tLast) = _
  rw [after0_3]
  exact (Memref.read_access_unit_zero (Elt Ideal) main_v4_1 hoff (fun a => by rw [congrFun hoff a]; exact Nat.le_of_eq (Nat.zero_add _)) _).symm

/-- The segment-sum result array ends at the sum accumulator's contents after the last point, -/
theorem final0_2 (c : Dev nD) :
    (dat0 V c).arrAt 2 cfg0.N = (acc0 V c 244 (by rw [show cfg0.N = 245 from N_0]; decide)).1 := by
  refine (dat0 V c).arrAt_eq_of_cover 2 _ (flushed0_2 V c) fun i => ?_
  refine ⟨tLast, (flush0_2 tLast).mpr rfl, ?_⟩
  show i ∈ ((View.whole main_v4_0).slice (win0_2.rect tLast)).set
  rw [View.set_slice_whole, Rect.mem_set_unit]
  intro a
  match a with
  | ⟨0, _⟩ =>
    have hi : (i 0 : Nat) < 16 := (i 0).isLt
    show win0_2.index tLast 0 * 16 ≤ (i 0 : Nat) ∧ (i 0 : Nat) < win0_2.index tLast 0 * 16 + 16
    rw [(index0_2 tLast).1]
    omega
  | ⟨1, _⟩ =>
    have hi : (i 1 : Nat) < 128 := (i 1).isLt
    show win0_2.index tLast 1 * 128 ≤ (i 1 : Nat) ∧ (i 1 : Nat) < win0_2.index tLast 1 * 128 + 128
    rw [(index0_2 tLast).2]
    omega

/-- and the segment-count result array at the count accumulator's. -/
theorem final0_3 (c : Dev nD) :
    (dat0 V c).arrAt 3 cfg0.N = (acc0 V c 244 (by rw [show cfg0.N = 245 from N_0]; decide)).2 := by
  refine (dat0 V c).arrAt_eq_of_cover 3 _ (flushed0_3 V c) fun i => ?_
  refine ⟨tLast, (flush0_3 tLast).mpr rfl, ?_⟩
  show i ∈ ((View.whole main_v4_1).slice (win0_3.rect tLast)).set
  rw [View.set_slice_whole, Rect.mem_set_unit]
  intro a
  match a with
  | ⟨0, _⟩ =>
    have hi : (i 0 : Nat) < 16 := (i 0).isLt
    show win0_3.index tLast 0 * 16 ≤ (i 0 : Nat) ∧ (i 0 : Nat) < win0_3.index tLast 0 * 16 + 16
    rw [(index0_3 tLast).1]
    omega
  | ⟨1, _⟩ =>
    have hi : (i 1 : Nat) < 128 := (i 1).isLt
    show win0_3.index tLast 1 * 128 ≤ (i 1 : Nat) ∧ (i 1 : Nat) < win0_3.index tLast 1 * 128 + 128
    rw [(index0_3 tLast).2]
    omega

end Cert.KernelIdeal.Hand

end
-- ==== Proof.LibColumn.lean ====
/-
  Two layout operations read at an index, for a vector kept as a COLUMN: a vector of length a cast to the [a, 1]
  column reads its entry at the row, and a column broadcast along its unit axis to [a, b] reads the column's entry at
  the row, whatever the column index. (The forms a sum with kept dimensions goes through before it is added to a
  matrix row by row, and a vector of per-row values before it is compared with a matrix column by column.)
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the operand at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.LibColumn
-- ==== Proof.Val1.lean ====
/-
  The gather-and-multiply call's result array as a value, over the extended reals: at padded row j and channel c it
  is the data's entry times the sum over the 16 segments of the one-hot weight of the row's id times the gate
  table's entry — each grid point writes back its block of that one function of the three arrays, and the blocks
  cover the array.
-/
import proofs.«405616_j738734375755_1_alg».proof.Proof.R1Body
import proofs.«405616_j738734375755_1_alg».proof.Proof.Spec
import proofs.«405616_j738734375755_1_alg».proof.Proof.LibColumn
import Idealize.ShloMosaic.Lib.Pipeline.Value
import Idealize.ShloMosaic.Lib.ValueIdx
import Idealize.ShloMosaic.PureOps.Ideal.Laws
import Idealize.ShloMosaic.Lib.StableHlo.Predicate

set_option maxRecDepth 16384

noncomputable section

open scoped BigOperators

namespace Cert.KernelIdeal.Hand

open Cert.KernelIdeal Cert.KernelIdeal.Gen Cert.Spec Cert.LibColumn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the call reads, as the call finds them, at their literal types: the padded data, the padded
    segment ids, the gate table; and its result array after the run. -/
abbrev xP (c : Dev nD) : Vec Ideal S1003520x128 .f32 := V c main_v1
abbrev iP (c : Dev nD) : Vec Ideal S1003520 .i32 := V c main_v3
abbrev gT (c : Dev nD) : Vec Ideal S16x128 .f32 := V c main_v18
abbrev outP (c : Dev nD) : Vec Ideal S1003520x128 .f32 := (dat1 V c).arrAt 3 cfg1.N

/-! ## The body's one store at an index -/

/-- The compare bit of "the row's id is segment s", widened and converted, is the one-hot weight. -/
theorem bit_to_hot (b : BitVec 32) (s : Fin 16) :
    FloatOps.sitofp (F := Ideal) .f32 ((IntOp.cmpi .eq b (BitVec.ofNat 32 s.val)).setWidth 32) = hot b s := by
  by_cases h : b = BitVec.ofNat 32 s.val
  · rw [hot_eq_one h, StableHlo.Predicate.cmpi_eq_iff.mpr h]
    show (((1#1 : BitVec 1).setWidth 32).toInt : ℝ) = ((1 : ℝ) : EReal)
    norm_num
  · rw [hot_eq_zero h, eq_zero_of_ne_one (fun e => h (StableHlo.Predicate.cmpi_eq_iff.mp e))]
    show ((((0#1 : BitVec 1).setWidth 32).toInt : ℝ) : EReal) = 0
    norm_num

/-- The one-hot matrix of a block of segment ids, at row r and segment s. -/
theorem onehot_apply (x1 : Vec Ideal S4096 .i32) (h1 : S4096.ShapeCasts S4096) (h2 : S4096.ShapeCasts S4096x1)
    (h3 : S4096x1.ShapeCasts S4096x1) (h4 : S4096x1.Broadcasts S4096x16) (h5 : S4096x16.Iotas .tc 32 [1]) (h6 : 1 < 32)
    (r : Fin 4096) (s : Fin 16) :
    (sitofp .f32 (extui 32 (cmpi .eq (broadcastTo S4096x16 (shapeCast S4096x1 (shapeCast S4096x1 (shapeCast S4096 x1 h1) h2) h3) h4)
        (iota .tc S4096x16 32 [1] h5)) h6) : FVec Ideal S4096x16 .f32) (ix2 r s) = hot (x1 (ix1 r)) s := by
  rw [sitofp_apply, extui_apply]
  show FloatOps.sitofp (F := Ideal) .f32 ((IntOp.cmpi .eq (broadcastTo S4096x16 _ h4 (ix2 r s)) (iota .tc S4096x16 32 [1] h5 (ix2 r s))).setWidth 32) = _
  rw [broadcastTo_a1_ab_apply, shapeCast_self, shapeCast_a_a1_apply, shapeCast_self, iota_single_apply]
  exact bit_to_hot _ s

theorem lhsG_0 (i : S4096x128.Idx) (q : dot_S4096x16_S16x128_S4096x128_1_0_0_1_n_n.contr.Idx) : (dot_S4096x16_S16x128_S4096x128_1_0_0_1_n_n.lhsIdx i q 0).val = (i 0).val := by
  unfold DotDims.lhsIdx
  rw [dif_neg (show ¬(0 : Fin S4096x16.rank) ∈ dot_S4096x16_S16x128_S4096x128_1_0_0_1_n_n.lhsBatch by decide), dif_pos (show (0 : Fin S4096x16.rank) ∈ dot_S4096x16_S16x128_S4096x128_1_0_0_1_n_n.lhsNonContracting by decide)]
  rfl
theorem lhsG_1 (i : S4096x128.Idx) (q : dot_S4096x16_S16x128_S4096x128_1_0_0_1_n_n.contr.Idx) : (dot_S4096x16_S16x128_S4096x128_1_0_0_1_n_n.lhsIdx i q 1).val = (q ⟨0, by decide⟩).val :=
  dot_S4096x16_S16x128_S4096x128_1_0_0_1_n_n.lhsIdx_val_of_single rfl i q
theorem rhsG_0 (i : S4096x128.Idx) (q : dot_S4096x16_S16x128_S4096x128_1_0_0_1_n_n.contr.Idx) : (dot_S4096x16_S16x128_S4096x128_1_0_0_1_n_n.rhsIdx i q 0).val = (q ⟨0, by decide⟩).val :=
  dot_S4096x16_S16x128_S4096x128_1_0_0_1_n_n.rhsIdx_val_of_single rfl i q
theorem rhsG_1 (i : S4096x128.Idx) (q : dot_S4096x16_S16x128_S4096x128_1_0_0_1_n_n.contr.Idx) : (dot_S4096x16_S16x128_S4096x128_1_0_0_1_n_n.rhsIdx i q 1).val = (i 1).val := by
  unfold DotDims.rhsIdx
  rw [dif_neg (show ¬(1 : Fin S16x128.rank) ∈ dot_S4096x16_S16x128_S4096x128_1_0_0_1_n_n.rhsBatch by decide), dif_pos (show (1 : Fin S16x128.rank) ∈ dot_S4096x16_S16x128_S4096x128_1_0_0_1_n_n.rhsNonContracting by decide)]
  rfl

/-- The one-hot matrix times the gate table, into a zero accumulator, at row r and channel col: the sum over the 16
    segments. -/
theorem gatherMatmul_apply (l : FVec Ideal S4096x16 .bf16) (g : FVec Ideal S16x128 .bf16) (r : Fin 4096) (col : Fin 128) :
    matmul dot_S4096x16_S16x128_S4096x128_1_0_0_1_n_n none l g (constant (F := Ideal) S4096x128 .f32 0x00000000#32) (ix2 r col)
      = ∑ s : Fin 16, l (ix2 r s) * g (ix2 s col) := by
  show FloatOps.matmul dot_S4096x16_S16x128_S4096x128_1_0_0_1_n_n none l g (constant (F := Ideal) S4096x128 .f32 0x00000000#32) (ix2 r col) = _
  rw [Ideal.matmul_constant_zero_apply, ← Equiv.sum_comp (contrEquiv1 dot_S4096x16_S16x128_S4096x128_1_0_0_1_n_n 16 rfl rfl).symm]
  refine Finset.sum_congr rfl fun k _ => ?_
  have hk := contrEquiv1_symm_val dot_S4096x16_S16x128_S4096x128_1_0_0_1_n_n 16 rfl rfl k
  have el : dot_S4096x16_S16x128_S4096x128_1_0_0_1_n_n.lhsIdx (ix2 r col) ((contrEquiv1 dot_S4096x16_S16x128_S4096x128_1_0_0_1_n_n 16 rfl rfl).symm k) = ix2 r k := funext fun a => Fin.ext (by
    match a with
    | ⟨0, _⟩ => exact lhsG_0 _ _
    | ⟨1, _⟩ => exact (lhsG_1 _ _).trans hk)
  have er : dot_S4096x16_S16x128_S4096x128_1_0_0_1_n_n.rhsIdx (ix2 r col) ((contrEquiv1 dot_S4096x16_S16x128_S4096x128_1_0_0_1_n_n 16 rfl rfl).symm k) = ix2 k col := funext fun a => Fin.ext (by
    match a with
    | ⟨0, _⟩ => exact (rhsG_0 _ _).trans hk
    | ⟨1, _⟩ => exact rhsG_1 _ _)
  rw [el, er]

/-- The body's one store, at row r and channel col: the data's entry times the gate row the row's id selects. -/
theorem pay1_apply (x0 : Vec Ideal S4096x128 .f32) (x1 : Vec Ideal S4096 .i32) (x2 : Vec Ideal S16x128 .f32)
    (r : Fin 4096) (col : Fin 128) :
    (k1_pay1 (F := Ideal) x0 x1 x2 : FVec Ideal S4096x128 .f32) (ix2 r col)
      = x0 (ix2 r col) * ∑ s : Fin 16, hot (x1 (ix1 r)) s * x2 (ix2 s col) := by
  unfold k1_pay1
  dsimp only
  rw [mulf_apply, shapeCast_self x0, gatherMatmul_apply]
  refine congrArg (x0 (ix2 r col) * ·) (Finset.sum_congr rfl fun s _ => ?_)
  rw [truncf_apply, truncf_apply, onehot_apply, shapeCast_self x2]

/-! ## From blocks to the array -/

theorem hzI : (![0] : Fin 1 → Nat) = fun _ => 0 := funext fun a => by fin_cases a; rfl

/-- The call's result as ONE function of the three arrays it reads: at padded row and channel, the data's entry times
    the sum over the 16 segments of the one-hot weight of the row's id times the gate table's entry. -/
def G3 (xp : Vec Ideal S1003520x128 .f32) (ip : Vec Ideal S1003520 .i32) (g : Vec Ideal S16x128 .f32) : Vec Ideal S1003520x128 .f32 :=
  fun i => xp i * ∑ s : Fin 16, hot (ip (ix1 ⟨(i 0).val, idx2_lt0 i⟩)) s * g (ix2 s ⟨(i 1).val, idx2_lt1 i⟩)

/-- The printed index maps, decided over the grid: the data, the ids and the output move one block per grid point
    along the rows; the gate table's one block never moves. -/
theorem idx_facts1 : ∀ t : Fin cfg1.N, win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of block t is padded row 4096 t + r. -/
theorem row_lt (t : Fin cfg1.N) (r : Fin 4096) : 4096 * t.val + r.val < 1003520 := by
  have h : t.val < 245 := lt_of_lt_of_eq t.isLt (show cfg1.N = 245 from N_1)
  omega

/-- The data's block at point t, at row r and channel col, is the padded data at row 4096 t + r. -/
theorem blk_x (c : Dev nD) (t : Fin cfg1.N) (r : Fin 4096) (col : Fin 128) :
    (iblk1 V c 0 t : Vec Ideal S4096x128 .f32) (ix2 r col) = xP V c (ix2 ⟨4096 * t.val + r.val, row_lt t r⟩ col) := by
  obtain ⟨e00, e01, -⟩ := idx_facts1 t
  unfold iblk1
  rw [View.read_apply]
  show V c main_v1 _ = V c main_v1 _
  congr 1
  funext a
  apply Fin.ext
  match a with
  | ⟨0, _⟩ => show win1_0.index t (0 : Fin 2) * 4096 + 1 * r.val = 4096 * t.val + r.val; omega
  | ⟨1, _⟩ => show win1_0.index t (1 : Fin 2) * 128 + 1 * col.val = col.val; omega

/-- The ids' block at point t, at row r, is the padded id at row 4096 t + r. -/
theorem blk_i (c : Dev nD) (t : Fin cfg1.N) (r : Fin 4096) :
    (iblk1 V c 1 t : Vec Ideal S4096 .i32) (ix1 r) = iP V c (ix1 ⟨4096 * t.val + r.val, row_lt t r⟩) := by
  obtain ⟨-, -, e10, -⟩ := idx_facts1 t
  unfold iblk1
  rw [View.read_apply]
  show V c main_v3 _ = V c main_v3 _
  congr 1
  funext a
  apply Fin.ext
  match a with
  | ⟨0, _⟩ => show win1_1.index t (0 : Fin 1) * 4096 + 1 * r.val = 4096 * t.val + r.val; omega

/-- The gate table's block is the whole table at every point. -/
theorem blk_g (c : Dev nD) (t : Fin cfg1.N) (s : Fin 16) (col : Fin 128) :
    (iblk1 V c 2 t : Vec Ideal S16x128 .f32) (ix2 s col) = gT V c (ix2 s col) := by
  obtain ⟨-, -, -, e20, e21, -⟩ := idx_facts1 t
  unfold iblk1
  rw [View.read_apply]
  show V c main_v18 _ = V c main_v18 _
  congr 1
  funext a
  apply Fin.ext
  match a with
  | ⟨0, _⟩ => show win1_2.index t (0 : Fin 2) * 16 + 1 * s.val = s.val; omega
  | ⟨1, _⟩ => show win1_2.index t (1 : Fin 2) * 128 + 1 * col.val = col.val; omega

/-- An element of the output's block at point t sits at padded row 4096 t + its row, same channel. -/
theorem emb3 (t : Fin cfg1.N) (r : Fin 4096) (col : Fin 128) :
    ((cfg1.win 3).blk t).view.emb (ix2 r col) = (ix2 ⟨4096 * t.val + r.val, row_lt t r⟩ col : S1003520x128.Idx) := by
  obtain ⟨-, -, -, -, -, e30, e31⟩ := idx_facts1 t
  funext a
  apply Fin.ext
  match a with
  | ⟨0, _⟩ => show win1_3.index t (0 : Fin 2) * 4096 + 1 * r.val = 4096 * t.val + r.val; omega
  | ⟨1, _⟩ => show win1_3.index t (1 : Fin 2) * 128 + 1 * col.val = col.val; omega

/-- WHAT POINT t WRITES BACK is block t of `G3` of the three arrays as the call finds them. -/
theorem flushed3_eq (c : Dev nD) (t : Fin cfg1.N) :
    (dat1 V c).flushed 3 t = ((cfg1.win 3).blk t).view.read (Elt Ideal) (G3 (xP V c) (iP V c) (gT V c)) := by
  show (cfg1.win 3).cut (grid1.coords t) ((dat1 V c).after 3 t) = _
  rw [after1_3]
  unfold out1_3
  rw [View.canon_unit_zero hzX]
  simp only [View.ld_unit_zero (S := S4096x128) hzX, View.ld_unit_zero (S := S4096) hzI, View.ld_unit_zero (S := S16x128) hzX]
  funext j
  obtain ⟨r, col, rfl⟩ : ∃ (r : Fin 4096) (col : Fin 128), j = ix2 r col := ⟨j 0, j 1, eq_ix2 j⟩
  show (k1_pay1 (F := Ideal) (iblk1 V c 0 t) (iblk1 V c 1 t) (iblk1 V c 2 t) : FVec Ideal S4096x128 .f32) (ix2 r col)
    = G3 (xP V c) (iP V c) (gT V c) (((cfg1.win 3).blk t).view.emb (ix2 r col))
  rw [pay1_apply, emb3, blk_x, blk_i]
  show _ = xP V c (ix2 ⟨4096 * t.val + r.val, row_lt t r⟩ col) * ∑ s : Fin 16, hot (iP V c (ix1 ⟨4096 * t.val + r.val, row_lt t r⟩)) s * gT V c (ix2 s col)
  refine congrArg (xP V c (ix2 ⟨4096 * t.val + r.val, row_lt t r⟩ col) * ·) (Finset.sum_congr rfl fun s _ => ?_)
  rw [blk_g]

/-- An index of the array is in point t's block iff each coordinate is in the block's range on its axis. -/
theorem mem_blk3 (t : Fin cfg1.N) (i : S1003520x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v19).slice (win1_3.rect t)).set ↔ _
  rw [View.set_slice_whole, Rect.mem_set_unit]
  exact Iff.rfl

/-- Every padded row lies in the block of the point numbered by its row divided by 4096, and every point writes back. -/
theorem cover3 (i : S1003520x128.Idx) :
    ∃ t : Fin cfg1.N, (cfg1.win 3).flush t = true ∧ i ∈ ((cfg1.win 3).blk t).view.set := by
  have hi0 : (i 0).val < 1003520 := idx2_lt0 i
  have hi1 : (i 1).val < 128 := idx2_lt1 i
  have hN : cfg1.N = 245 := N_1
  have hq : (i 0).val / 4096 < cfg1.N := by rw [hN]; omega
  obtain ⟨-, -, -, -, -, e30, e31⟩ := idx_facts1 ⟨(i 0).val / 4096, hq⟩
  refine ⟨⟨(i 0).val / 4096, hq⟩, flush1_3 _, ?_⟩
  rw [mem_blk3]
  intro a
  match a with
  | ⟨0, _⟩ =>
    show win1_3.index ⟨(i 0).val / 4096, hq⟩ (0 : Fin 2) * 4096 ≤ (i 0).val ∧ (i 0).val < win1_3.index ⟨(i 0).val / 4096, hq⟩ (0 : Fin 2) * 4096 + 4096
    rw [e30]; dsimp only; omega
  | ⟨1, _⟩ =>
    show win1_3.index ⟨(i 0).val / 4096, hq⟩ (1 : Fin 2) * 128 ≤ (i 1).val ∧ (i 1).val < win1_3.index ⟨(i 0).val / 4096, hq⟩ (1 : Fin 2) * 128 + 128
    rw [e31]; omega

/-- So the result array ends holding `G3` of the three arrays. -/
theorem final1 (c : Dev nD) : (dat1 V c).arrAt 3 cfg1.N = G3 (xP V c) (iP V c) (gT V c) :=
  (dat1 V c).arrAt_eq_of_cover 3 (G3 (xP V c) (iP V c) (gT V c)) (fun t _ => flushed3_eq V c t) cover3

/-- The result array of the gather-and-multiply call at padded row `j`, channel `col`. -/
theorem final1_3 (c : Dev nD) (j : Fin 1003520) (col : Fin 128) :
    outP V c (ix2 j col) = xP V c (ix2 j col) * ∑ s : Fin 16, hot (iP V c (ix1 j)) s * gT V c (ix2 s col) := by
  show (dat1 V c).arrAt 3 cfg1.N (ix2 j col) = _
  rw [final1 V c]
  rfl

end Cert.KernelIdeal.Hand

end
-- ==== Proof.Gate.lean ====
/-
  The 16×128 gate table as a function of the segment sums and counts: the segment means (sums over counts, a count
  of zero replaced by one), a 128→32 linear layer, relu, a 32→128 linear layer, and the logistic function written as
  1 / (1 + exp(−z)). Both programs apply these same host operations, so the certificate carries them as named
  functions and never opens them: `pooledOf` for the means, `mlp` for everything after them.
-/
import proofs.«405616_j738734375755_1_alg».proof.Proof.Gen.KernelIdeal

noncomputable section

namespace Cert.KernelIdeal.Hand

open Cert.KernelIdeal Cert.KernelIdeal.Gen
open Idealize.ShloMosaic

variable {F : FTy → Type} [FloatOps F]

/-- The segment means: each sum over its count, the count raised to at least one. -/
def pooledOf (ss cnt : FVec F S16x128 .f32) : FVec F S16x128 .f32 :=
  Host.divf ss (maximumf cnt (broadcastInDim S16x128 ![] bcast_S_S16x128 (constant S_ .f32 0x3F800000#32)))

/-- From the segment means to the gate: linear, relu, linear, logistic. -/
def mlp (p : FVec F S16x128 .f32) (w1 : FVec F S32x128 .f32) (w2 : FVec F S128x32 .f32) : FVec F S16x128 .f32 :=
  Host.divf (broadcastInDim S16x128 ![] bcast_S_S16x128 (constant S_ .f32 0x3F800000#32))
    (addf (broadcastInDim S16x128 ![] bcast_S_S16x128 (constant S_ .f32 0x3F800000#32))
      (Host.exp (Host.negf
        (Host.dotGeneral dot_S16x32_S32x128_S16x128_1_0_0_1_n_n none
          (maximumf
            (Host.dotGeneral dot_S16x128_S128x32_S16x32_1_0_0_1_n_n none p (transpose S128x32 [1, 0] w1 transposes_S32x128_S128x32_1_0))
            (broadcastInDim S16x32 ![] bcast_S_S16x32 (constant S_ .f32 0x00000000#32)))
          (transpose S32x128 [1, 0] w2 transposes_S128x32_S32x128_1_0)))))

/-- The gate table from the segment sums and counts. -/
def gateOf (ss cnt : FVec F S16x128 .f32) (w1 : FVec F S32x128 .f32) (w2 : FVec F S128x32 .f32) : FVec F S16x128 .f32 :=
  mlp (pooledOf ss cnt) w1 w2

end Cert.KernelIdeal.Hand

end
-- ==== Proof.HostVal.lean ====
/-
  What the host operations of the kernel's program compute, read where the value proof needs them: the padded data
  and padded segment ids agree with the arguments on the real rows and are zero / the id 16 on the padding rows; the
  gate table is the named gate function of the two result arrays of the segment-reduce call; the data and the ids
  reach the second call unchanged; and the returned array is the first 1,000,000 rows of the second call's result.
-/
import proofs.«405616_j738734375755_1_alg».proof.Proof.Fold
import proofs.«405616_j738734375755_1_alg».proof.Proof.Spec
import proofs.«405616_j738734375755_1_alg».proof.Proof.Gate
import proofs.«405616_j738734375755_1_alg».proof.Proof.Gen.KernelIdeal.Regions
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The padding -/

/-- The padded data as a term: the data with 3,520 rows of the constant zero laid behind it. -/
private theorem V1_x_term (c : Dev nD) :
    (V1 m c main_v1 : Vec Ideal S1003520x128 .f32) =
      concatenate S1003520x128 0 [⟨S1000000x128, (m ((c : Thread nD τ).loc main_arg0) : Vec Ideal S1000000x128 .f32)⟩,
        ⟨S3520x128, (broadcastInDim S3520x128 ![] bcast_S_S3520x128 (constant (F := Ideal) S_ .f32 0x00000000#32) : Vec Ideal S3520x128 .f32)⟩]
        concatenates_S1000000x128_S3520x128_S1003520x128_d0 := by
  show StableHlo.after hostOps0 (fun b => m (c, b)) (Proc.devRef .tc main_v1) = _
  after_results

/-- The padded segment ids as a term: the ids with 3,520 copies of the id 16 laid behind them. -/
private theorem V1_i_term (c : Dev nD) :
    (V1 m c main_v3 : Vec Ideal S1003520 .i32) =
      concatenate S1003520 0 [⟨S1000000, (m ((c : Thread nD τ).loc main_arg1) : Vec Ideal S1000000 .i32)⟩,
        ⟨S3520, (broadcastInDim S3520 ![] bcast_S_S3520 (constantI S_ 32 16#32) : Vec Ideal S3520 .i32)⟩]
        concatenates_S1000000_S3520_S1003520_d0 := by
  show StableHlo.after hostOps0 (fun b => m (c, b)) (Proc.devRef .tc main_v3) = _
  after_results

/-- Any 1,000,000 × 128 array with zero rows laid behind it, read at a row given as a natural number, is the array read
    there: a row below 1,000,000 falls in the first piece at the same coordinates; a row from 1,000,000 to 1,003,519 falls
    in the second piece, 1,000,000 rows up, where the broadcast constant is zero, as is the array read past its end;
    past 1,003,520 both sides are zero. -/
private theorem pad_x (x : Vec Ideal S1000000x128 .f32) (j : ℕ) (col : Fin 128) :
    natRow2 (concatenate S1003520x128 0 [⟨S1000000x128, x⟩,
        ⟨S3520x128, (broadcastInDim S3520x128 ![] bcast_S_S3520x128 (constant (F := Ideal) S_ .f32 0x00000000#32) : Vec Ideal S3520x128 .f32)⟩]
        concatenates_S1000000x128_S3520x128_S1003520x128_d0 : Vec Ideal S1003520x128 .f32) j col = natRow2 x j col := by
  by_cases h1 : j < 1000000
  · have h2 : j < 1003520 := by omega
    rw [natRow2_of_lt _ h2, natRow2_of_lt _ h1]
    exact concatenate_pair_apply_left (t := S1003520x128) (s₁ := S1000000x128) (s₂ := S3520x128) (0 : Fin 2) _ _ _ (ix2 ⟨j, h2⟩ col) rfl (ix2 ⟨j, h1⟩ col)
      (fun b => match b with | ⟨0, _⟩ => rfl | ⟨1, _⟩ => rfl)
  · by_cases h2 : j < 1003520
    · rw [natRow2_of_lt _ h2, natRow2_of_ge _ (Nat.not_lt.1 h1)]
      refine (concatenate_pair_apply_right (t := S1003520x128) (s₁ := S1000000x128) (s₂ := S3520x128) (0 : Fin 2) _ _ _ (ix2 ⟨j, h2⟩ col) rfl rfl
        (ix2 (⟨j - 1000000, by omega⟩ : Fin 3520) col) ?_ ?_).trans ?_
      · intro b hb
        match b with
        | ⟨0, _⟩ => exact absurd rfl hb
        | ⟨1, _⟩ => rfl
      · show j - 1000000 + 1000000 = j
        omega
      · exact (broadcastInDim_apply _ _ _ _ ix0 (fun a => a.elim0)).trans Ideal.ofBits_zero_f32
    · rw [natRow2_of_ge _ (Nat.not_lt.1 h2), natRow2_of_ge _ (Nat.not_lt.1 h1)]

/-- The same for a vector of 1,000,000 ids with copies of the id 16 laid behind it: past the real ids both sides read 16. -/
private theorem pad_i (i : Vec Ideal S1000000 .i32) (j : ℕ) :
    natRow1 (concatenate S1003520 0 [⟨S1000000, i⟩,
        ⟨S3520, (broadcastInDim S3520 ![] bcast_S_S3520 (constantI S_ 32 16#32) : Vec Ideal S3520 .i32)⟩]
        concatenates_S1000000_S3520_S1003520_d0 : Vec Ideal S1003520 .i32) j = natRow1 i j := by
  by_cases h1 : j < 1000000
  · have h2 : j < 1003520 := by omega
    rw [natRow1_of_lt _ h2, natRow1_of_lt _ h1]
    exact concatenate_pair_apply_left (t := S1003520) (s₁ := S1000000) (s₂ := S3520) (0 : Fin 1) _ _ _ (ix1 ⟨j, h2⟩) rfl (ix1 ⟨j, h1⟩)
      (fun b => match b with | ⟨0, _⟩ => rfl)
  · by_cases h2 : j < 1003520
    · rw [natRow1_of_lt _ h2, natRow1_of_ge _ (Nat.not_lt.1 h1)]
      refine (concatenate_pair_apply_right (t := S1003520) (s₁ := S1000000) (s₂ := S3520) (0 : Fin 1) _ _ _ (ix1 ⟨j, h2⟩) rfl rfl
        (ix1 (⟨j - 1000000, by omega⟩ : Fin 3520)) ?_ ?_).trans ?_
      · intro b hb
        match b with
        | ⟨0, _⟩ => exact absurd rfl hb
      · show j - 1000000 + 1000000 = j
        omega
      · exact broadcastInDim_apply _ _ _ _ ix0 (fun a => a.elim0)
    · rw [natRow1_of_ge _ (Nat.not_lt.1 h2), natRow1_of_ge _ (Nat.not_lt.1 h1)]

/-- The padded data read at any row is the data read there (zero past the last real row, as the padding is). -/
theorem V1_x (c : Dev nD) (j : ℕ) (col : Fin 128) :
    natRow2 (V1 m c main_v1 : Vec Ideal S1003520x128 .f32) j col = natRow2 (m ((c : Thread nD τ).loc main_arg0) : Vec Ideal S1000000x128 .f32) j col := by
  rw [V1_x_term m c]
  exact pad_x _ j col

/-- The padded segment ids read at any position are the ids read there (the id 16 past the last real row). -/
theorem V1_i (c : Dev nD) (j : ℕ) :
    natRow1 (V1 m c main_v3 : Vec Ideal S1003520 .i32) j = natRow1 (m ((c : Thread nD τ).loc main_arg1) : Vec Ideal S1000000 .i32) j := by
  rw [V1_i_term m c]
  exact pad_i _ j

/-! ## What reaches the second call -/

/-- The padded data and ids reach the second call as the first call found them: no operation of the three stretches
    between the calls writes them, and each is an input array of the first call, left as entered. -/
theorem V5_x (c : Dev nD) : V5 m c main_v1 = V1 m c main_v1 :=
  calc V5 m c main_v1
    _ = W4 m c (Proc.devRef .tc main_v1) := StableHlo.after_of_writes_sub hostOps1_2 _ hostOps1_2_writes (by decide)
    _ = W3 m c (Proc.devRef .tc main_v1) := StableHlo.after_of_writes_sub hostOps1_1 _ hostOps1_1_writes (by decide)
    _ = W2 m c (Proc.devRef .tc main_v1) := StableHlo.after_of_writes_sub hostOps1 _ hostOps1_writes (by decide)
    _ = (dat0 (V1 m) c).arrAt 0 cfg0.N := W2_arr m c 0
    _ = (dat0 (V1 m) c).A 0 := (dat0 (V1 m) c).arrAt_in 0 rfl _
    _ = V1 m c main_v1 := A_eq0 (V1 m) c 0
theorem V5_i (c : Dev nD) : V5 m c main_v3 = V1 m c main_v3 :=
  calc V5 m c main_v3
    _ = W4 m c (Proc.devRef .tc main_v3) := StableHlo.after_of_writes_sub hostOps1_2 _ hostOps1_2_writes (by decide)
    _ = W3 m c (Proc.devRef .tc main_v3) := StableHlo.after_of_writes_sub hostOps1_1 _ hostOps1_1_writes (by decide)
    _ = W2 m c (Proc.devRef .tc main_v3) := StableHlo.after_of_writes_sub hostOps1 _ hostOps1_writes (by decide)
    _ = (dat0 (V1 m) c).arrAt 1 cfg0.N := W2_arr m c 1
    _ = (dat0 (V1 m) c).A 1 := (dat0 (V1 m) c).arrAt_in 1 rfl _
    _ = V1 m c main_v3 := A_eq0 (V1 m) c 1

/-- The two weight matrices are as launched at the first call's exit: the call has neither as an array and the padding
    writes neither. -/
private theorem W2_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
private theorem W2_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- The gate table the second call is entered with is the gate function of the first call's two result arrays: the
    three stretches between the calls, run as one line of nineteen operations from the first call's exit, compose to
    the gate function's own term over the two result arrays and the two weight matrices. -/
theorem V5_gate (c : Dev nD) :
    V5 m c main_v18 = gateOf (F := Ideal) (V2 m c main_v4_0) (V2 m c main_v4_1) (m ((c : Thread nD τ).loc main_arg2)) (m ((c : Thread nD τ).loc main_arg3)) := by
  show StableHlo.after hostOps1_2 (StableHlo.after hostOps1_1 (StableHlo.after hostOps1 (W2 m c))) (Proc.devRef .tc main_v18) = _
  rw [← StableHlo.after_append, ← StableHlo.after_append]
  simp only [hostOps1, hostOps1_1, hostOps1_2, List.cons_append, List.nil_append]
  after_results
  rw [W2_arg2 m c, W2_arg3 m c]
  rfl

/-! ## The return -/

/-- The returned array is the first 1,000,000 rows of the second call's result array: a slice at zero offsets reads
    the same coordinates. -/
theorem W7_out (c : Dev nD) (j : Fin 1000000) (col : Fin 128) :
    (W7 m c (Proc.devRef .tc main_v20) : Vec Ideal S1000000x128 .f32) (ix2 j col)
      = (V6 m c main_v19 : Vec Ideal S1003520x128 .f32) (ix2 ⟨j.val, by have := j.isLt; omega⟩ col) := by
  have e : (W7 m c (Proc.devRef .tc main_v20) : Vec Ideal S1000000x128 .f32)
      = extractStridedSlice S1000000x128 ![0, 0] (W6 m c (Proc.devRef .tc main_v19) : Vec Ideal S1003520x128 .f32)
          slices_S1003520x128_S1000000x128_0_0 := by
    show StableHlo.after hostOps2 (W6 m c) (Proc.devRef .tc main_v20) = _
    after_results
  rw [e]
  exact extractStridedSlice_apply _ _ _ (ix2 j col) _
    (fun a => match a with | ⟨0, _⟩ => (Nat.zero_add _).symm | ⟨1, _⟩ => (Nat.zero_add _).symm)

end Cert.KernelIdeal.Hand

end
-- ==== Proof.GSpec.lean ====
/-
  The result both programs are shown to compute, as ONE function of the four arguments: at row j and channel c, the
  data's entry times the gate table's entry at the row's segment and that channel, the gate table being the gate
  function of the segment sums and the segment counts (the counts spread over the 128 columns).
-/
import proofs.«405616_j738734375755_1_alg».proof.Proof.Spec
import proofs.«405616_j738734375755_1_alg».proof.Proof.Gate

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem

/-- The segment sums as a 16×128 array. -/
def SS (x : FVec Ideal S1000000x128 .f32) (idx : IVec S1000000 32) : FVec Ideal S16x128 .f32 :=
  fun i => segSum x idx ⟨(i 0).val, idx2_lt0 i⟩ ⟨(i 1).val, idx2_lt1 i⟩

/-- The segment counts as a 16×128 array, every column alike. -/
def CC (idx : IVec S1000000 32) : FVec Ideal S16x128 .f32 :=
  fun i => segCnt idx ⟨(i 0).val, idx2_lt0 i⟩

/-- The result. -/
def G (x : FVec Ideal S1000000x128 .f32) (idx : IVec S1000000 32) (w1 : FVec Ideal S32x128 .f32) (w2 : FVec Ideal S128x32 .f32) :
    FVec Ideal S1000000x128 .f32 :=
  fun j => x j * gateOf (F := Ideal) (SS x idx) (CC idx) w1 w2
    (ix2 (rowOf (idx (ix1 ⟨(j 0).val, idx2_lt0 j⟩))) ⟨(j 1).val, idx2_lt1 j⟩)

end Cert.KernelIdeal.Hand

end
-- ==== Proof.KernelValue.lean ====
/-
  The kernel's program computes the result function: assembled from the parts. The first call's two result arrays are
  the segment sums and the segment counts — its accumulators sum the one-hot weighted rows block by block over the
  padded rows, the padding rows contribute nothing (zero data; the id 16 is no segment's), and a sum over 245 blocks
  of 4096 rows is the sum over the rows —; the host operations between the calls make the gate table of them; the
  second call multiplies each row by the gate row its id selects (an id in range is one segment's: the 16 one-hot
  weights pick that row); the final slice keeps the real rows.
-/
import proofs.«405616_j738734375755_1_alg».proof.Proof.Val0
import proofs.«405616_j738734375755_1_alg».proof.Proof.Val1
import proofs.«405616_j738734375755_1_alg».proof.Proof.HostVal
import proofs.«405616_j738734375755_1_alg».proof.Proof.GSpec

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The four arguments at launch, at their literal types. -/
abbrev xA (c : Dev nD) : Vec Ideal S1000000x128 .f32 := m ((c : Thread nD τ).loc main_arg0)
abbrev iA (c : Dev nD) : Vec Ideal S1000000 .i32 := m ((c : Thread nD τ).loc main_arg1)
abbrev w1A (c : Dev nD) : Vec Ideal S32x128 .f32 := m ((c : Thread nD τ).loc main_arg2)
abbrev w2A (c : Dev nD) : Vec Ideal S128x32 .f32 := m ((c : Thread nD τ).loc main_arg3)

/-- A one-hot weighted sum over the padded rows, block by block, is the sum over the real rows: the padding rows
    hold zeros. -/
theorem blocks_to_rows (c : Dev nD) (s : Fin 16) (col : Fin 128) :
    ∑ t ∈ Finset.range (244 + 1), ∑ r : Fin 4096,
        hot (natRow1 (V1 m c main_v3 : Vec Ideal S1003520 .i32) (4096 * t + r.val)) s * natRow2 (V1 m c main_v1 : Vec Ideal S1003520x128 .f32) (4096 * t + r.val) col
      = segSum (xA m c) (iA m c) s col := by
  have e : ∀ j : ℕ, hot (natRow1 (V1 m c main_v3 : Vec Ideal S1003520 .i32) j) s * natRow2 (V1 m c main_v1 : Vec Ideal S1003520x128 .f32) j col
      = hot (natRow1 (iA m c) j) s * natRow2 (xA m c) j col := fun j => by rw [V1_x m c j col, V1_i m c j]
  refine (Finset.sum_congr rfl fun t _ => Finset.sum_congr rfl fun r _ => e (4096 * t + r.val)).trans ?_
  rw [sum_blocks (fun j => hot (natRow1 (iA m c) j) s * natRow2 (xA m c) j col),
    sum_padded _ (fun j hj => by rw [natRow2_of_ge _ hj, mul_zero])]
  exact Finset.sum_congr rfl fun r _ => by rw [natRow1_of_lt _ r.isLt, natRow2_of_lt _ r.isLt]

/-- The same for the weights alone: the padding rows' id 16 is no segment's. -/
theorem blocks_to_count (c : Dev nD) (s : Fin 16) :
    ∑ t ∈ Finset.range (244 + 1), ∑ r : Fin 4096, hot (natRow1 (V1 m c main_v3 : Vec Ideal S1003520 .i32) (4096 * t + r.val)) s
      = segCnt (iA m c) s := by
  have e : ∀ j : ℕ, hot (natRow1 (V1 m c main_v3 : Vec Ideal S1003520 .i32) j) s = hot (natRow1 (iA m c) j) s :=
    fun j => by rw [V1_i m c j]
  refine (Finset.sum_congr rfl fun t _ => Finset.sum_congr rfl fun r _ => e (4096 * t + r.val)).trans ?_
  rw [sum_blocks (fun j => hot (natRow1 (iA m c) j) s),
    sum_padded _ (fun j hj => by rw [natRow1_of_ge _ hj, hot_pad])]
  exact Finset.sum_congr rfl fun r _ => by rw [natRow1_of_lt _ r.isLt]

/-- The first call's first result array is the segment sums, -/
theorem sums_eq (c : Dev nD) : (V2 m c main_v4_0 : Vec Ideal S16x128 .f32) = SS (xA m c) (iA m c) := by
  show (W2 m c (Proc.devRef .tc (Pipeline.arrRef spec0 2)) : Vec Ideal S16x128 .f32) = _
  rw [W2_arr m c 2, final0_2 (V1 m) c]
  funext i
  obtain ⟨s, col, rfl⟩ : ∃ (s : Fin 16) (col : Fin 128), i = ix2 s col := ⟨i 0, i 1, eq_ix2 i⟩
  rw [acc0_sum (V1 m) c 244 _ s col]
  exact blocks_to_rows m c s col

/-- and its second the segment counts, every column alike. -/
theorem counts_eq (c : Dev nD) : (V2 m c main_v4_1 : Vec Ideal S16x128 .f32) = CC (iA m c) := by
  show (W2 m c (Proc.devRef .tc (Pipeline.arrRef spec0 3)) : Vec Ideal S16x128 .f32) = _
  rw [W2_arr m c 3, final0_3 (V1 m) c]
  funext i
  obtain ⟨s, col, rfl⟩ : ∃ (s : Fin 16) (col : Fin 128), i = ix2 s col := ⟨i 0, i 1, eq_ix2 i⟩
  rw [acc0_cnt (V1 m) c 244 _ s col]
  exact blocks_to_count m c s

/-- THE KERNEL'S VALUE. With every segment id in range, the array @main returns is the result function of the four
    arguments. -/
theorem kernel_value (c : Dev nD) (hidx : ∀ r : Fin 1000000, (iA m c (ix1 r)).toNat < 16) :
    (W7 m c (Proc.devRef .tc main_v20) : Vec Ideal S1000000x128 .f32) = G (xA m c) (iA m c) (w1A m c) (w2A m c) := by
  funext j
  obtain ⟨r, col, rfl⟩ : ∃ (r : Fin 1000000) (col : Fin 128), j = ix2 r col := ⟨j 0, j 1, eq_ix2 j⟩
  have hr : r.val < 1003520 := by have := r.isLt; omega
  rw [W7_out m c r col]
  show (W6 m c (Proc.devRef .tc (Pipeline.arrRef spec1 3)) : Vec Ideal S1003520x128 .f32) (ix2 ⟨r.val, hr⟩ col) = _
  rw [W6_arr m c 3]
  refine (final1_3 (V5 m) c ⟨r.val, hr⟩ col).trans ?_
  have hx : xP (V5 m) c (ix2 ⟨r.val, hr⟩ col) = xA m c (ix2 r col) := by
    show (V5 m c main_v1 : Vec Ideal S1003520x128 .f32) (ix2 ⟨r.val, hr⟩ col) = _
    rw [V5_x m c, ← natRow2_of_lt (V1 m c main_v1 : Vec Ideal S1003520x128 .f32) hr col, V1_x m c r.val col, natRow2_of_lt _ r.isLt]
  have hi : iP (V5 m) c (ix1 ⟨r.val, hr⟩) = iA m c (ix1 r) := by
    show (V5 m c main_v3 : Vec Ideal S1003520 .i32) (ix1 ⟨r.val, hr⟩) = _
    rw [V5_i m c, ← natRow1_of_lt (V1 m c main_v3 : Vec Ideal S1003520 .i32) hr, V1_i m c r.val, natRow1_of_lt _ r.isLt]
  have hg : gT (V5 m) c = gateOf (F := Ideal) (SS (xA m c) (iA m c)) (CC (iA m c)) (w1A m c) (w2A m c) := by
    show (V5 m c main_v18 : Vec Ideal S16x128 .f32) = _
    rw [V5_gate m c, sums_eq m c, counts_eq m c]
  rw [hx, hi, hg, sum_hot_mul (hidx r) (fun s => gateOf (F := Ideal) (SS (xA m c) (iA m c)) (CC (iA m c)) (w1A m c) (w2A m c) (ix2 s col))]
  rfl

end Cert.KernelIdeal.Hand

end
-- ==== Proof.RefScatter.lean ====
/-
  The reference's three indexed operations read at an index, over the extended reals. Its segment sums are a
  scatter-add of the data's rows into 16 rows by segment id, and its segment counts a scatter-add of ones: each
  result entry is the sum of the updates whose row's id is that segment, which is the sum over ALL rows of the
  one-hot weight times the update. Its final gather reads the gate table at each row's id (negative ids shifted by
  16 first, then clamped: for an id in range, the id itself).
-/
import proofs.«405616_j738734375755_1_alg».proof.Proof.Gen.ReferenceIdeal
import proofs.«405616_j738734375755_1_alg».proof.Proof.Spec
import Idealize.ShloMosaic.Lib.ValueIdx
import Idealize.ShloMosaic.PureOps.Ideal.Laws
import Idealize.ShloMosaic.Lib.StableHlo.Predicate
import Idealize.ShloMosaic.Lib.IdealHost
import Idealize.ShloMosaic.Lib.ValueIdxRank1

set_option maxRecDepth 16384

noncomputable section

open scoped BigOperators

namespace Cert.ReferenceIdeal.Hand

open Cert.ReferenceIdeal Cert.ReferenceIdeal.Gen Cert.Spec
open Idealize.ShloMosaic Idealize.ShloMosaic.ValueIdx

/-! ## Words and the column of ids -/

/-- A 32-bit word read as a signed integer is the segment number `s` (below 16) exactly when it is the word of `s`:
    the signed reading is injective, and a small natural number's word reads back as itself. -/
private theorem toInt_eq_iff (b : BitVec 32) (s : Fin 16) : b.toInt = (s.val : ℤ) ↔ b = BitVec.ofNat 32 s.val := by
  have hs := s.isLt
  constructor
  · intro h
    exact BitVec.eq_of_toInt_eq (h.trans (StableHlo.Predicate.toInt_ofNat_small s.val (by omega)).symm)
  · intro h
    rw [h]; exact StableHlo.Predicate.toInt_ofNat_small s.val (by omega)

/-- The ids laid out as a 1000000 × 1 column: entry (r, 0) is the id of row `r`. -/
private theorem column_apply (idx : IVec S1000000 32) (r : Fin 1000000) :
    broadcastInDim S1000000x1 ![0] bcast_S1000000_S1000000x1_0 idx (ix2 r (0 : Fin 1)) = idx (ix1 r) := by
  simp only [broadcastInDim]
  congr 1
  funext a
  match a with
  | ⟨0, _⟩ =>
    apply Fin.ext
    split
    · next h1 => change (1000000 : ℕ) = 1 at h1; omega
    · rfl

/-- The accumulating scatter over the extended reals at a result index: the operand's entry plus the sum of the
    updates that land there. -/
private theorem scatterAdd_apply {s si su : Shape} (d : ScatterDims s si su) {w : Nat} (x0 : FVec Ideal s .f32)
    (I : IVec si w) (u : FVec Ideal su .f32) (i : s.Idx) :
    Host.scatterAdd (F := Ideal) d x0 I u i
      = x0 i + ∑ j ∈ Finset.univ.filter (fun j => d.resultIdx? j I = some i), u j := rfl

/-! ## Where an update of the row scatter lands

The data's rows are scattered with the channel axis as the window: update (r, c) starts at row `I[r, 0]` (read
signed, not clamped) and keeps its channel `c`. -/

/-- Update (r, c) reads its start index at entry (r, 0) of the index column. -/
private theorem rows_siIdx (r : Fin 1000000) (c : Fin 128)
    (k : Fin scatter_S16x128_S1000000x1_S1000000x128_1_0_0_1.scatterDimsToOperandDims.length) :
    scatter_S16x128_S1000000x1_S1000000x128_1_0_0_1.siIdx (ix2 r c) k = ix2 r (0 : Fin 1) := by
  funext b; refine Fin.ext ?_
  match b with
  | ⟨0, _⟩ => rfl
  | ⟨1, _⟩ =>
    have hk : k.val < 1 := k.isLt
    show k.val = 0
    omega

/-- On the segment axis the window starts at the row's id, read signed. -/
private theorem rows_start_seg (I : IVec S1000000x1 32) (r : Fin 1000000) (c : Fin 128) :
    scatter_S16x128_S1000000x1_S1000000x128_1_0_0_1.start (ix2 r c) I 0 = (I (ix2 r (0 : Fin 1))).toInt := by
  unfold ScatterDims.start
  rw [dif_pos (show (0 : Fin 2) ∈ scatter_S16x128_S1000000x1_S1000000x128_1_0_0_1.scatterDimsToOperandDims from
    List.mem_singleton.mpr rfl)]
  rw [rows_siIdx]

/-- On the channel axis the window starts at 0. -/
private theorem rows_start_chan (I : IVec S1000000x1 32) (j : S1000000x128.Idx) :
    scatter_S16x128_S1000000x1_S1000000x128_1_0_0_1.start j I 1 = 0 := by
  unfold ScatterDims.start
  rw [dif_neg (show ¬ (1 : Fin 2) ∈ scatter_S16x128_S1000000x1_S1000000x128_1_0_0_1.scatterDimsToOperandDims by decide)]

/-- The segment axis is inserted: no window coordinate on it. -/
private theorem rows_window_seg (j : S1000000x128.Idx) :
    scatter_S16x128_S1000000x1_S1000000x128_1_0_0_1.window j 0 = 0 := by
  unfold ScatterDims.window
  rw [dif_neg (show ¬ (0 : Fin 2) ∈ scatter_S16x128_S1000000x1_S1000000x128_1_0_0_1.sKept by decide)]

/-- The window coordinate on the channel axis is the update's channel. -/
private theorem rows_window_chan (r : Fin 1000000) (c : Fin 128) :
    scatter_S16x128_S1000000x1_S1000000x128_1_0_0_1.window (ix2 r c) 1 = c.val := by
  unfold ScatterDims.window
  rw [dif_pos (show (1 : Fin 2) ∈ scatter_S16x128_S1000000x1_S1000000x128_1_0_0_1.sKept by decide)]
  rfl

/-- Update (r, c) lands at (s, col) exactly when row `r`'s index, read signed, is `s` and `c` is `col` (an index
    outside 0 … 15 lands nowhere). -/
private theorem rows_lands_iff (I : IVec S1000000x1 32) (r : Fin 1000000) (c : Fin 128) (s : Fin 16) (col : Fin 128) :
    scatter_S16x128_S1000000x1_S1000000x128_1_0_0_1.resultIdx? (ix2 r c) I = some (ix2 s col)
      ↔ (I (ix2 r (0 : Fin 1))).toInt = (s.val : ℤ) ∧ c = col := by
  have hs := s.isLt
  have hc := c.isLt
  unfold ScatterDims.resultIdx?
  split
  · next h =>
    rw [Option.some.injEq]
    constructor
    · intro e
      have h0 := (h 0).1
      have e0 : (scatter_S16x128_S1000000x1_S1000000x128_1_0_0_1.start (ix2 r c) I 0
          + (scatter_S16x128_S1000000x1_S1000000x128_1_0_0_1.window (ix2 r c) 0 : ℕ)).toNat = s.val :=
        congrArg Fin.val (congrFun e 0)
      have e1 : (scatter_S16x128_S1000000x1_S1000000x128_1_0_0_1.start (ix2 r c) I 1
          + (scatter_S16x128_S1000000x1_S1000000x128_1_0_0_1.window (ix2 r c) 1 : ℕ)).toNat = col.val :=
        congrArg Fin.val (congrFun e 1)
      rw [rows_start_seg, rows_window_seg] at h0 e0
      rw [rows_start_chan, rows_window_chan] at e1
      refine ⟨by omega, Fin.ext (by omega)⟩
    · rintro ⟨e0, e1⟩
      funext a
      refine Fin.ext ?_
      match a with
      | ⟨0, _⟩ =>
        show (scatter_S16x128_S1000000x1_S1000000x128_1_0_0_1.start (ix2 r c) I 0
          + (scatter_S16x128_S1000000x1_S1000000x128_1_0_0_1.window (ix2 r c) 0 : ℕ)).toNat = s.val
        rw [rows_start_seg, rows_window_seg]; omega
      | ⟨1, _⟩ =>
        show (scatter_S16x128_S1000000x1_S1000000x128_1_0_0_1.start (ix2 r c) I 1
          + (scatter_S16x128_S1000000x1_S1000000x128_1_0_0_1.window (ix2 r c) 1 : ℕ)).toNat = col.val
        rw [rows_start_chan, rows_window_chan, e1]; omega
  · next h =>
    constructor
    · intro e; exact absurd e (by simp)
    · rintro ⟨e0, e1⟩
      exfalso; apply h
      intro a
      match a with
      | ⟨0, _⟩ =>
        show 0 ≤ scatter_S16x128_S1000000x1_S1000000x128_1_0_0_1.start (ix2 r c) I 0
            + (scatter_S16x128_S1000000x1_S1000000x128_1_0_0_1.window (ix2 r c) 0 : ℕ)
          ∧ scatter_S16x128_S1000000x1_S1000000x128_1_0_0_1.start (ix2 r c) I 0
            + (scatter_S16x128_S1000000x1_S1000000x128_1_0_0_1.window (ix2 r c) 0 : ℕ) < ((16 : ℕ) : ℤ)
        rw [rows_start_seg, rows_window_seg]; omega
      | ⟨1, _⟩ =>
        show 0 ≤ scatter_S16x128_S1000000x1_S1000000x128_1_0_0_1.start (ix2 r c) I 1
            + (scatter_S16x128_S1000000x1_S1000000x128_1_0_0_1.window (ix2 r c) 1 : ℕ)
          ∧ scatter_S16x128_S1000000x1_S1000000x128_1_0_0_1.start (ix2 r c) I 1
            + (scatter_S16x128_S1000000x1_S1000000x128_1_0_0_1.window (ix2 r c) 1 : ℕ) < ((128 : ℕ) : ℤ)
        rw [rows_start_chan, rows_window_chan]; omega

/-- The scatter-add of the data's rows by segment id, from zeros, is the segment sum. -/
theorem scatter_sum (x : FVec Ideal S1000000x128 .f32) (idx : IVec S1000000 32)
    (hidx : ∀ r : Fin 1000000, (idx (ix1 r)).toNat < 16) (s : Fin 16) (col : Fin 128) :
    Host.scatterAdd (F := Ideal) scatter_S16x128_S1000000x1_S1000000x128_1_0_0_1
        (broadcastInDim S16x128 ![] bcast_S_S16x128 (constant (F := Ideal) S_ .f32 0x00000000#32))
        (broadcastInDim S1000000x1 ![0] bcast_S1000000_S1000000x1_0 idx) x (ix2 s col)
      = segSum x idx s col := by
  refine (scatterAdd_apply _ _ _ _ _).trans ?_
  have h0 : broadcastInDim S16x128 ![] bcast_S_S16x128 (constant (F := Ideal) S_ .f32 0x00000000#32) (ix2 s col) = 0 :=
    Ideal.ofBits_zero_f32
  -- the sum over the updates landing at (s, col), as a sum over all (r, c) of an indicator times the update
  rw [h0, zero_add, Finset.sum_filter, sum_idx2]
  unfold segSum
  refine Finset.sum_congr rfl fun r _ => ?_
  by_cases hr : idx (ix1 r) = BitVec.ofNat 32 s.val
  · -- a row of segment s: of its 128 updates exactly the one of channel col lands at (s, col)
    rw [hot_eq_one hr, one_mul, Finset.sum_eq_single col]
    · rw [if_pos]
      exact (rows_lands_iff _ r col s col).mpr ⟨by rw [column_apply]; exact (toInt_eq_iff _ s).mpr hr, rfl⟩
    · intro c _ hc
      rw [if_neg]
      intro h
      exact hc ((rows_lands_iff _ r c s col).mp h).2
    · intro h; exact absurd (Finset.mem_univ _) h
  · -- a row of another segment: none of its updates lands in row s
    rw [hot_eq_zero hr, zero_mul]
    refine Finset.sum_eq_zero fun c _ => ?_
    rw [if_neg]
    intro h
    apply hr
    have h1 := ((rows_lands_iff _ r c s col).mp h).1
    rw [column_apply] at h1
    exact (toInt_eq_iff _ s).mp h1

/-! ## Where an update of the count scatter lands

The ones are scattered with no window: update `r` lands at position `I[r, 0]` (read signed, not clamped). -/

/-- Update `r` reads its start index at entry (r, 0) of the index column. -/
private theorem ones_siIdx (r : Fin 1000000) (k : Fin scatter_S16_S1000000x1_S1000000_n_0_0_1.scatterDimsToOperandDims.length) :
    scatter_S16_S1000000x1_S1000000_n_0_0_1.siIdx (ix1 r) k = ix2 r (0 : Fin 1) := by
  funext b; refine Fin.ext ?_
  match b with
  | ⟨0, _⟩ => rfl
  | ⟨1, _⟩ =>
    have hk : k.val < 1 := k.isLt
    show k.val = 0
    omega

/-- The start on the one axis is the row's id, read signed. -/
private theorem ones_start (I : IVec S1000000x1 32) (r : Fin 1000000) :
    scatter_S16_S1000000x1_S1000000_n_0_0_1.start (ix1 r) I 0 = (I (ix2 r (0 : Fin 1))).toInt := by
  unfold ScatterDims.start
  rw [dif_pos (show (0 : Fin 1) ∈ scatter_S16_S1000000x1_S1000000_n_0_0_1.scatterDimsToOperandDims from
    List.mem_singleton.mpr rfl)]
  rw [ones_siIdx]

/-- The one axis is inserted: no window coordinate. -/
private theorem ones_window (j : S1000000.Idx) : scatter_S16_S1000000x1_S1000000_n_0_0_1.window j 0 = 0 := by
  unfold ScatterDims.window
  rw [dif_neg (show ¬ (0 : Fin 1) ∈ scatter_S16_S1000000x1_S1000000_n_0_0_1.sKept by decide)]

/-- Update `r` lands at `s` exactly when row `r`'s index, read signed, is `s`. -/
private theorem ones_lands_iff (I : IVec S1000000x1 32) (r : Fin 1000000) (s : Fin 16) :
    scatter_S16_S1000000x1_S1000000_n_0_0_1.resultIdx? (ix1 r) I = some (ix1 s)
      ↔ (I (ix2 r (0 : Fin 1))).toInt = (s.val : ℤ) := by
  have hs := s.isLt
  unfold ScatterDims.resultIdx?
  split
  · next h =>
    rw [Option.some.injEq]
    constructor
    · intro e
      have h0 := (h 0).1
      have e0 : (scatter_S16_S1000000x1_S1000000_n_0_0_1.start (ix1 r) I 0
          + (scatter_S16_S1000000x1_S1000000_n_0_0_1.window (ix1 r) 0 : ℕ)).toNat = s.val :=
        congrArg Fin.val (congrFun e 0)
      rw [ones_start, ones_window] at h0 e0
      omega
    · intro e0
      funext a
      refine Fin.ext ?_
      match a with
      | ⟨0, _⟩ =>
        show (scatter_S16_S1000000x1_S1000000_n_0_0_1.start (ix1 r) I 0
          + (scatter_S16_S1000000x1_S1000000_n_0_0_1.window (ix1 r) 0 : ℕ)).toNat = s.val
        rw [ones_start, ones_window]; omega
  · next h =>
    constructor
    · intro e; exact absurd e (by simp)
    · intro e0
      exfalso; apply h
      intro a
      match a with
      | ⟨0, _⟩ =>
        show 0 ≤ scatter_S16_S1000000x1_S1000000_n_0_0_1.start (ix1 r) I 0
            + (scatter_S16_S1000000x1_S1000000_n_0_0_1.window (ix1 r) 0 : ℕ)
          ∧ scatter_S16_S1000000x1_S1000000_n_0_0_1.start (ix1 r) I 0
            + (scatter_S16_S1000000x1_S1000000_n_0_0_1.window (ix1 r) 0 : ℕ) < ((16 : ℕ) : ℤ)
        rw [ones_start, ones_window]; omega

/-- The scatter-add of ones by segment id, from zeros, is the segment count. -/
theorem scatter_cnt (idx : IVec S1000000 32) (hidx : ∀ r : Fin 1000000, (idx (ix1 r)).toNat < 16) (s : Fin 16) :
    Host.scatterAdd (F := Ideal) scatter_S16_S1000000x1_S1000000_n_0_0_1
        (broadcastInDim S16 ![] bcast_S_S16 (constant (F := Ideal) S_ .f32 0x00000000#32))
        (broadcastInDim S1000000x1 ![0] bcast_S1000000_S1000000x1_0 idx)
        (broadcastInDim S1000000 ![] bcast_S_S1000000 (constant (F := Ideal) S_ .f32 0x3F800000#32)) (ix1 s)
      = segCnt idx s := by
  refine (scatterAdd_apply _ _ _ _ _).trans ?_
  have h0 : broadcastInDim S16 ![] bcast_S_S16 (constant (F := Ideal) S_ .f32 0x00000000#32) (ix1 s) = 0 :=
    Ideal.ofBits_zero_f32
  have h1 : ∀ j, broadcastInDim S1000000 ![] bcast_S_S1000000 (constant (F := Ideal) S_ .f32 0x3F800000#32) j = 1 :=
    fun _ => Ideal.ofBits_one_f32
  -- the sum over the updates landing at s, as a sum over all rows of an indicator
  rw [h0, zero_add, Finset.sum_filter, ← Equiv.sum_comp (idxEquiv1 (n := 1000000)).symm]
  unfold segCnt
  refine Finset.sum_congr rfl fun r _ => ?_
  show (if scatter_S16_S1000000x1_S1000000_n_0_0_1.resultIdx? (ix1 r) _ = some (ix1 s) then _ else 0) = _
  rw [h1]
  by_cases hr : idx (ix1 r) = BitVec.ofNat 32 s.val
  · rw [hot_eq_one hr, if_pos]
    exact (ones_lands_iff _ r s).mpr (by rw [column_apply]; exact (toInt_eq_iff _ s).mpr hr)
  · rw [hot_eq_zero hr, if_neg]
    intro h
    apply hr
    have h2 := (ones_lands_iff _ r s).mp h
    rw [column_apply] at h2
    exact (toInt_eq_iff _ s).mp h2

/-! ## What the gather reads

Result entry (r, c) reads the table at row `min (toNat (toInt I[r, 0])) 15` (the start index read signed and clamped
into the table) and channel `c` (the offset axis). -/

/-- An id in range is not negative, so the sign normalisation (add 16 to a negative id) leaves it as it is. -/
private theorem normalised_id (b : BitVec 32) (hb : b.toNat < 16) :
    Scalar.select (IntOp.cmpi .slt b 0#32) (IntOp.addi b 16#32) b = b := by
  have h : IntOp.cmpi .slt b 0#32 = 0#1 := by
    apply eq_zero_of_ne_one
    intro h1
    have h2 := (StableHlo.Predicate.slt_iff_toNat (a := b) (b := 0#32) (by omega) (by decide)).mp h1
    have h0 : (0#32 : BitVec 32).toNat = 0 := rfl
    omega
  rw [h, select_zero]

/-- Result entry (r, c) reads its start index at entry (r, 0) of the index column. -/
private theorem table_siIdx (r : Fin 1000000) (col : Fin 128)
    (k : Fin gather_S16x128_S1000000x1_S1000000x128_1_0_n_n_0_1_1128.startIndexMap.length) :
    gather_S16x128_S1000000x1_S1000000x128_1_0_n_n_0_1_1128.siIdx (ix2 r col) k = ix2 r (0 : Fin 1) := by
  funext b; refine Fin.ext ?_
  match b with
  | ⟨0, _⟩ => rfl
  | ⟨1, _⟩ =>
    have hk : k.val < 1 := k.isLt
    show k.val = 0
    omega

/-- On the segment axis the slice (of one row) starts at the index read signed, clamped into 0 … 15. -/
private theorem table_start_seg (I : IVec S1000000x1 32) (r : Fin 1000000) (col : Fin 128) :
    gather_S16x128_S1000000x1_S1000000x128_1_0_n_n_0_1_1128.start (ix2 r col) I 0
      = min (I (ix2 r (0 : Fin 1))).toInt.toNat 15 := by
  unfold GatherDims.start
  rw [dif_pos (show (0 : Fin 2) ∈ gather_S16x128_S1000000x1_S1000000x128_1_0_n_n_0_1_1128.startIndexMap from
    List.mem_singleton.mpr rfl), table_siIdx]
  rfl

/-- On the channel axis the slice (all 128 channels) starts at 0. -/
private theorem table_start_chan (I : IVec S1000000x1 32) (j : S1000000x128.Idx) :
    gather_S16x128_S1000000x1_S1000000x128_1_0_n_n_0_1_1128.start j I 1 = 0 := by
  unfold GatherDims.start
  rw [dif_neg (show ¬ (1 : Fin 2) ∈ gather_S16x128_S1000000x1_S1000000x128_1_0_n_n_0_1_1128.startIndexMap by decide)]

/-- There are no batching axes. -/
private theorem table_batch (j : S1000000x128.Idx) (a : Fin 2) :
    gather_S16x128_S1000000x1_S1000000x128_1_0_n_n_0_1_1128.batchCoord j a = 0 :=
  GatherDims.batchCoord_eq_zero _ _ _ List.not_mem_nil

/-- The segment axis is collapsed: no offset on it. -/
private theorem table_off_seg (j : S1000000x128.Idx) :
    gather_S16x128_S1000000x1_S1000000x128_1_0_n_n_0_1_1128.offCoord j 0 = 0 := by
  unfold GatherDims.offCoord
  rw [dif_neg (show ¬ (0 : Fin 2) ∈ gather_S16x128_S1000000x1_S1000000x128_1_0_n_n_0_1_1128.sKept by decide)]

/-- The offset on the channel axis is the result's channel. -/
private theorem table_off_chan (r : Fin 1000000) (col : Fin 128) :
    gather_S16x128_S1000000x1_S1000000x128_1_0_n_n_0_1_1128.offCoord (ix2 r col) 1 = col.val := by
  unfold GatherDims.offCoord
  rw [dif_pos (show (1 : Fin 2) ∈ gather_S16x128_S1000000x1_S1000000x128_1_0_n_n_0_1_1128.sKept by decide)]
  rfl

/-- The gather of the gate table's rows by (sign-normalised) segment id reads, at row `r`, the row's segment. -/
theorem gather_row (g : FVec Ideal S16x128 .f32) (idx : IVec S1000000 32)
    (hidx : ∀ r : Fin 1000000, (idx (ix1 r)).toNat < 16) (r : Fin 1000000) (col : Fin 128) :
    Host.gather gather_S16x128_S1000000x1_S1000000x128_1_0_n_n_0_1_1128 g
        (broadcastInDim S1000000x1 ![0] bcast_S1000000_S1000000x1_0
          (select (cmpi .slt idx (broadcastInDim S1000000 ![] bcast_S_S1000000 (constantI S_ 32 0#32)))
            (addi idx (broadcastInDim S1000000 ![] bcast_S_S1000000 (constantI S_ 32 16#32))) idx)) (ix2 r col)
      = g (ix2 (rowOf (idx (ix1 r))) col) := by
  have hb := hidx r
  unfold Host.gather
  refine congrArg g (funext fun a => Fin.ext ?_)
  match a with
  | ⟨0, _⟩ =>
    show gather_S16x128_S1000000x1_S1000000x128_1_0_n_n_0_1_1128.start (ix2 r col) _ 0
        + gather_S16x128_S1000000x1_S1000000x128_1_0_n_n_0_1_1128.batchCoord (ix2 r col) 0
        + gather_S16x128_S1000000x1_S1000000x128_1_0_n_n_0_1_1128.offCoord (ix2 r col) 0 = (rowOf (idx (ix1 r))).val
    rw [table_start_seg, table_batch, table_off_seg, column_apply]
    -- the normalised id at row r: the id itself, which is below 16, so the clamp does nothing either
    show min (Scalar.select (IntOp.cmpi .slt (idx (ix1 r)) 0#32) (IntOp.addi (idx (ix1 r)) 16#32)
      (idx (ix1 r))).toInt.toNat 15 + 0 + 0 = _
    rw [normalised_id _ hb, StableHlo.Predicate.toInt_eq_toNat_of_lt (by omega)]
    simp only [rowOf]
    omega
  | ⟨1, _⟩ =>
    show gather_S16x128_S1000000x1_S1000000x128_1_0_n_n_0_1_1128.start (ix2 r col) _ 1
        + gather_S16x128_S1000000x1_S1000000x128_1_0_n_n_0_1_1128.batchCoord (ix2 r col) 1
        + gather_S16x128_S1000000x1_S1000000x128_1_0_n_n_0_1_1128.offCoord (ix2 r col) 1 = col.val
    rw [table_start_chan, table_batch, table_off_chan]
    omega

end Cert.ReferenceIdeal.Hand

end
-- ==== Proof.RefValue.lean ====
/-
  The reference computes the result function. Its run's term is the data times a gather of the gate table by segment
  id; the gate table is the shared chain (linear, relu, linear, logistic) of the segment means; and the segment means
  are the two scatter-adds' quotient. With every id in range: the scatter-add of the rows is the segment sum and the
  scatter-add of ones the segment count (both as one-hot sums over all rows), the counts broadcast along the columns
  are the kernel's count array, so the means are the kernel's means; the chain after them is the same operations,
  never opened; and the gather reads the gate row of the row's own segment.
-/
import proofs.«405616_j738734375755_1_alg».proof.Proof.RefScatter
import proofs.«405616_j738734375755_1_alg».proof.Proof.GSpec
import Idealize.ShloMosaic.Lib.Pipeline.Value

set_option maxRecDepth 16384

noncomputable section

open scoped BigOperators

namespace Cert.ReferenceIdeal.Hand

open Cert.ReferenceIdeal Cert.ReferenceIdeal.Gen Cert.Spec
open Idealize.ShloMosaic Idealize.ShloMosaic.ValueIdx

section Terms
variable {F : FTy → Type} [FloatOps F]

/-- The reference's segment means, as its run spells them. -/
def refPooled (x : FVec F S1000000x128 .f32) (idx : IVec S1000000 32) : FVec F S16x128 .f32 :=
  (Host.divf (Host.scatterAdd scatter_S16x128_S1000000x1_S1000000x128_1_0_0_1 (broadcastInDim S16x128 ![] bcast_S_S16x128 (constant S_ .f32 0x00000000#32)) (broadcastInDim S1000000x1 ![0] bcast_S1000000_S1000000x1_0 idx) x) (broadcastInDim S16x128 ![0, 1] bcast_S16x1_S16x128_0_1 (broadcastInDim S16x1 ![0] bcast_S16_S16x1_0 (maximumf (Host.scatterAdd scatter_S16_S1000000x1_S1000000_n_0_0_1 (broadcastInDim S16 ![] bcast_S_S16 (constant S_ .f32 0x00000000#32)) (broadcastInDim S1000000x1 ![0] bcast_S1000000_S1000000x1_0 idx) (broadcastInDim S1000000 ![] bcast_S_S1000000 (constant S_ .f32 0x3F800000#32))) (broadcastInDim S16 ![] bcast_S_S16 (constant S_ .f32 0x3F800000#32))))))

/-- The reference's chain from the segment means to the gate table, as its run spells it. -/
def refMlp (p : FVec F S16x128 .f32) (w1 : FVec F S32x128 .f32) (w2 : FVec F S128x32 .f32) : FVec F S16x128 .f32 :=
  (Host.divf (broadcastInDim S16x128 ![] bcast_S_S16x128 (constant S_ .f32 0x3F800000#32)) (addf (broadcastInDim S16x128 ![] bcast_S_S16x128 (constant S_ .f32 0x3F800000#32)) (Host.exp (Host.negf (Host.dotGeneral dot_S16x32_S32x128_S16x128_1_0_0_1_n_n none (maximumf (Host.dotGeneral dot_S16x128_S128x32_S16x32_1_0_0_1_n_n none p (transpose S128x32 [1, 0] w1 transposes_S32x128_S128x32_1_0)) (broadcastInDim S16x32 ![] bcast_S_S16x32 (constant S_ .f32 0x00000000#32))) (transpose S32x128 [1, 0] w2 transposes_S128x32_S32x128_1_0))))))

/-- The reference's result, as its run spells it. -/
def refTerm (x : FVec F S1000000x128 .f32) (idx : IVec S1000000 32) (w1 : FVec F S32x128 .f32) (w2 : FVec F S128x32 .f32) :
    FVec F S1000000x128 .f32 :=
  mulf x (Host.gather gather_S16x128_S1000000x1_S1000000x128_1_0_n_n_0_1_1128 (refMlp (refPooled x idx) w1 w2)
    (broadcastInDim S1000000x1 ![0] bcast_S1000000_S1000000x1_0 (select (cmpi .slt idx (broadcastInDim S1000000 ![] bcast_S_S1000000 (constantI S_ 32 0#32))) (addi idx (broadcastInDim S1000000 ![] bcast_S_S1000000 (constantI S_ 32 16#32))) idx)))

/-- The run's term IS that: the three names only fold it. -/
theorem run_term_eq (x : FVec F S1000000x128 .f32) (idx : IVec S1000000 32) (w1 : FVec F S32x128 .f32) (w2 : FVec F S128x32 .f32) :
    mulf x (Host.gather gather_S16x128_S1000000x1_S1000000x128_1_0_n_n_0_1_1128 (Host.divf (broadcastInDim S16x128 ![] bcast_S_S16x128 (constant S_ .f32 0x3F800000#32)) (addf (broadcastInDim S16x128 ![] bcast_S_S16x128 (constant S_ .f32 0x3F800000#32)) (Host.exp (Host.negf (Host.dotGeneral dot_S16x32_S32x128_S16x128_1_0_0_1_n_n none (maximumf (Host.dotGeneral dot_S16x128_S128x32_S16x32_1_0_0_1_n_n none (Host.divf (Host.scatterAdd scatter_S16x128_S1000000x1_S1000000x128_1_0_0_1 (broadcastInDim S16x128 ![] bcast_S_S16x128 (constant S_ .f32 0x00000000#32)) (broadcastInDim S1000000x1 ![0] bcast_S1000000_S1000000x1_0 idx) x) (broadcastInDim S16x128 ![0, 1] bcast_S16x1_S16x128_0_1 (broadcastInDim S16x1 ![0] bcast_S16_S16x1_0 (maximumf (Host.scatterAdd scatter_S16_S1000000x1_S1000000_n_0_0_1 (broadcastInDim S16 ![] bcast_S_S16 (constant S_ .f32 0x00000000#32)) (broadcastInDim S1000000x1 ![0] bcast_S1000000_S1000000x1_0 idx) (broadcastInDim S1000000 ![] bcast_S_S1000000 (constant S_ .f32 0x3F800000#32))) (broadcastInDim S16 ![] bcast_S_S16 (constant S_ .f32 0x3F800000#32)))))) (transpose S128x32 [1, 0] w1 transposes_S32x128_S128x32_1_0)) (broadcastInDim S16x32 ![] bcast_S_S16x32 (constant S_ .f32 0x00000000#32))) (transpose S32x128 [1, 0] w2 transposes_S128x32_S32x128_1_0)))))) (broadcastInDim S1000000x1 ![0] bcast_S1000000_S1000000x1_0 (select (cmpi .slt idx (broadcastInDim S1000000 ![] bcast_S_S1000000 (constantI S_ 32 0#32))) (addi idx (broadcastInDim S1000000 ![] bcast_S_S1000000 (constantI S_ 32 16#32))) idx)))
      = refTerm x idx w1 w2 := rfl

end Terms

/-- The chain after the segment means is the kernel's: the same operations over the same shapes. -/
theorem refMlp_eq (p : FVec Ideal S16x128 .f32) (w1 : FVec Ideal S32x128 .f32) (w2 : FVec Ideal S128x32 .f32) :
    refMlp (F := Ideal) p w1 w2 = Cert.KernelIdeal.Hand.mlp (F := Ideal) p w1 w2 := rfl

/-- The segment means from ANY sums and counts: if a 16×128 array `A` agrees entry by entry with `P`, and a length-16
    vector `B` agrees at each segment with every column of `Q`, then `A` over the column-broadcast of max(B, 1) is the
    kernel's means of `P` and `Q`. -/
theorem pooled_congr (A P Q : FVec Ideal S16x128 .f32) (B : FVec Ideal S16 .f32)
    (hA : ∀ (s : Fin 16) (col : Fin 128), A (ix2 s col) = P (ix2 s col))
    (hB : ∀ (s : Fin 16) (col : Fin 128), B (ix1 s) = Q (ix2 s col)) :
    Host.divf A (broadcastInDim S16x128 ![0, 1] bcast_S16x1_S16x128_0_1 (broadcastInDim S16x1 ![0] bcast_S16_S16x1_0
        (maximumf B (broadcastInDim S16 ![] bcast_S_S16 (constant (F := Ideal) S_ .f32 0x3F800000#32)))))
      = Cert.KernelIdeal.Hand.pooledOf (F := Ideal) P Q := by
  funext i
  obtain ⟨s, col, rfl⟩ : ∃ (s : Fin 16) (col : Fin 128), i = ix2 s col := ⟨i 0, i 1, eq_ix2 i⟩
  unfold Cert.KernelIdeal.Hand.pooledOf
  show FloatOps.hostDivf (F := Ideal) (A (ix2 s col)) _ = FloatOps.hostDivf (F := Ideal) (P (ix2 s col)) _
  rw [hA s col]
  refine congrArg (FloatOps.hostDivf (F := Ideal) (P (ix2 s col))) ?_
  rw [broadcastInDim_apply _ bcast_S16x1_S16x128_0_1 _ (ix2 s col) (ix2 s (0 : Fin 1)) (fun a => by
        match a with
        | ⟨0, _⟩ => rfl
        | ⟨1, _⟩ => rfl),
    broadcastInDim_apply _ bcast_S16_S16x1_0 _ (ix2 s (0 : Fin 1)) (ix1 s) (fun a => by
        match a with
        | ⟨0, _⟩ => rfl)]
  show FloatOps.maximumf (F := Ideal) (B (ix1 s)) _ = FloatOps.maximumf (F := Ideal) (Q (ix2 s col)) _
  rw [hB s col]
  rfl

/-- The reference's segment means are the kernel's: its scatter-add of the rows agrees entry by entry with the segment sums
    and its scatter-add of ones, at each segment, with every column of the count array. -/
theorem refPooled_eq (x : FVec Ideal S1000000x128 .f32) (idx : IVec S1000000 32)
    (hidx : ∀ r : Fin 1000000, (idx (ix1 r)).toNat < 16) :
    refPooled (F := Ideal) x idx
      = Cert.KernelIdeal.Hand.pooledOf (F := Ideal) (Cert.KernelIdeal.Hand.SS x idx) (Cert.KernelIdeal.Hand.CC idx) :=
  pooled_congr _ (Cert.KernelIdeal.Hand.SS x idx) (Cert.KernelIdeal.Hand.CC idx) _
    (fun s col => (scatter_sum x idx hidx s col).trans (show segSum x idx s col = Cert.KernelIdeal.Hand.SS x idx (ix2 s col) from rfl))
    (fun s col => (scatter_cnt idx hidx s).trans (show segCnt idx s = Cert.KernelIdeal.Hand.CC idx (ix2 s col) from rfl))

/-- THE REFERENCE'S VALUE. With every segment id in range, the reference's result is the result function of the four
    arguments. -/
theorem ref_value (x : FVec Ideal S1000000x128 .f32) (idx : IVec S1000000 32) (w1 : FVec Ideal S32x128 .f32)
    (w2 : FVec Ideal S128x32 .f32) (hidx : ∀ r : Fin 1000000, (idx (ix1 r)).toNat < 16) :
    refTerm (F := Ideal) x idx w1 w2 = Cert.KernelIdeal.Hand.G x idx w1 w2 := by
  funext j
  obtain ⟨r, col, rfl⟩ : ∃ (r : Fin 1000000) (col : Fin 128), j = ix2 r col := ⟨j 0, j 1, eq_ix2 j⟩
  unfold refTerm
  rw [mulf_apply, gather_row _ idx hidx r col, refMlp_eq, refPooled_eq x idx hidx]
  rfl

end Cert.ReferenceIdeal.Hand

end
-- ==== Proof.PreDecode.lean ====
/-
  The precondition read: besides the finiteness of the float inputs it says every segment id is at least 0 and
  below 16 as a signed number, that is, below 16 as an unsigned word.
-/
import proofs.«405616_j738734375755_1_alg».proof.Defs
import proofs.«405616_j738734375755_1_alg».proof.Proof.Gen.KernelIdeal
import proofs.«405616_j738734375755_1_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.Hand

open Idealize.ShloMosaic Idealize.ShloMosaic.TcCoe Idealize.ShloMosaic.ValueIdx Idealize.SL.Sem

/-- The scalar shape has one index. -/
instance : Subsingleton Cert.Pre_finite_inputs.S_.Idx := ⟨fun a b => funext fun d => d.elim0⟩

/-- A conjunction of two one-bit words is set exactly when both are. -/
theorem andi_one : ∀ (a b : BitVec 1), IntOp.andi a b = 1#1 ↔ a = 1#1 ∧ b = 1#1 := by decide

/-- A word that is at least 0 and below 16 as a SIGNED number is below 16 as an unsigned one: a word with its top
    bit set is negative, and a non-negative word's signed and unsigned readings agree. -/
theorem lt16_of_signed (w : BitVec 32) (h0 : IntOp.cmpi .sge w 0#32 = 1#1) (h1 : IntOp.cmpi .slt w 16#32 = 1#1) :
    w.toNat < 16 := by
  have hw := w.isLt
  have b0 : ∀ b : Bool, BitVec.ofBool b = 1#1 → b = true := by decide
  have h0' := b0 _ h0
  have h1' := b0 _ h1
  simp only [BitVec.sle, BitVec.slt, decide_eq_true_eq, BitVec.toInt, BitVec.toNat_ofNat] at h0' h1'
  by_cases htop : 2 * w.toNat < 2 ^ 32
  · rw [if_pos htop] at h1'
    norm_num at h1'
    omega
  · rw [if_neg htop] at h0'
    norm_num at h0'
    omega

/-- Under the precondition every segment id is in range. (Stated over the printed predicate itself, at any float
    instance, so that it serves the word-level program, the idealized one and the reference alike.) -/
theorem idx_in_range {F : FTy → Type} [FloatOps F] (x : FVec F Cert.Pre_finite_inputs.S1000000x128 .f32) (idx : IVec Cert.Pre_finite_inputs.S1000000 32)
    (w1 : FVec F Cert.Pre_finite_inputs.S32x128 .f32) (w2 : FVec F Cert.Pre_finite_inputs.S128x32 .f32)
    (h : Cert.Pre_finite_inputs.fn (F := F) x idx w1 w2 = fun _ => 1#1) (r : Fin 1000000) :
    (idx (ix1 r)).toNat < 16 := by
  have e := congrFun h ix0
  unfold Cert.Pre_finite_inputs.fn Cert.Pre_finite_inputs.fn_part1 at e
  dsimp only at e
  simp only [andi, andi_one] at e
  obtain ⟨⟨-, hge⟩, hlt⟩ := e
  have hge' := Host.reduce_andi_all _ _ _ _ _ hge (ix1 r)
  have hlt' := Host.reduce_andi_all _ _ _ _ _ hlt (ix1 r)
  simp only [cmpi, broadcastInDim, constantI] at hge' hlt'
  exact lt16_of_signed _ hge' hlt'

end Cert.KernelIdeal.Hand

end
-- ==== Proof.lean ====
/-
  The certificate of a segment squeeze-and-excite layer written as two Pallas calls, against its jnp reference, over
  the extended reals, under the precondition that the float inputs are finite and every segment id lies in 0 … 15.

  Both programs compute, at row j and channel c, x(j, c) · gate(id(j), c), where gate is the 16×128 table obtained
  from the per-segment means of x (segment sums over segment counts, a count of zero replaced by one) through a
  linear layer, relu, a second linear layer and the logistic function. The reference takes the segment sums and counts
  by scatter-add and reads the gate by a gather. The kernel pads the rows to 245 blocks of 4096 (zero rows with the id
  16, which is no segment's), accumulates one-hot matrix products block by block in two scratch accumulators over the
  grid of its first call, and in its second call multiplies each row by a one-hot matrix product with the gate
  table. Over the extended reals addition is commutative and associative and 0 · y = 0 for every y, so the one-hot
  sums regroup freely and the finiteness of the inputs is not needed; the range of the ids is: for an id outside
  0 … 15 the kernel's one-hot row is zero while the reference's gather clamps.

  The frames (each program runs to the end, faults nowhere, leaves its arguments unchanged): for the two kernel
  programs, the launch over @main's seven segments with each call's body run whole per control case; for the
  reference, its run with the result dropped. The ideal pass rewrote nothing, so `preserves` is trivial.
-/
import proofs.«405616_j738734375755_1_alg».proof.Defs
import proofs.«405616_j738734375755_1_alg».proof.Proof.KRun
import proofs.«405616_j738734375755_1_alg».proof.Proof.Run
import proofs.«405616_j738734375755_1_alg».proof.Proof.KernelValue
import proofs.«405616_j738734375755_1_alg».proof.Proof.RefValue
import proofs.«405616_j738734375755_1_alg».proof.Proof.PreDecode
import proofs.«405616_j738734375755_1_alg».proof.Proof.Gen.Kernel
import proofs.«405616_j738734375755_1_alg».proof.Proof.Gen.KernelIdeal
import proofs.«405616_j738734375755_1_alg».proof.Proof.Gen.ReferenceIdeal
import proofs.«405616_j738734375755_1_alg».proof.Proof.Gen.ReferenceIdeal.Run
import proofs.«405616_j738734375755_1_alg».proof.Proof.Gen.Pre_finite_inputs

set_option maxRecDepth 16384

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals, from memories agreeing on the arguments, both programs end holding the result function
    of the arguments: the kernel's returned array by `kernel_value`, the reference's by `ref_value`, each under the
    range of the segment ids that the precondition states. -/
theorem algebraic : Cert.algebraic_KernelIdeal_ReferenceIdeal := by
  intro m ρ m' ρ' hpre hagree
  have hidx : ∀ (c : Dev Cert.KernelIdeal.nD) (r : Fin 1000000), ((m ((c.tc : Thread Cert.KernelIdeal.nD Cert.KernelIdeal.τ).loc Cert.KernelIdeal.main_arg1) : Vec Ideal Cert.KernelIdeal.S1000000 .i32) (ix1 r)).toNat < 16 :=
    fun c r => Cert.KernelIdeal.Hand.idx_in_range (F := Ideal) _ _ _ _ (hpre c) r
  refine ⟨fun c => Cert.KernelIdeal.Hand.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Hand.mem_uc Cert.KernelIdeal.main_v20 (by decide))).trans (Cert.KernelIdeal.Hand.kernel_value m c (hidx c)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c)⟩)
      (Cert.KernelIdeal.Hand.run (F := Ideal) m ρ)
  · refine (θ_run Cert.ReferenceIdeal.defs _ _).mono (fun _ h c => ⟨(h c).1.trans ?_, (h c).2⟩) (Cert.ReferenceIdeal.Value.run (F := Ideal) m' ρ')
    refine (Cert.ReferenceIdeal.Hand.run_term_eq (F := Ideal) _ _ _ _).trans ?_
    obtain ⟨e0, e1, e2, e3⟩ := hagree c
    rw [e0, e1, e2, e3]
    exact Cert.ReferenceIdeal.Hand.ref_value _ _ _ _ (hidx c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
